-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S_ : Shape := ⟨0, ![]⟩

class Facts : Prop where
  bcast_S_S4x512x128x128 : S_.BroadcastsInDim S4x512x128x128 (![] : Fin 0 → Fin S4x512x128x128.rank)
  reducesTo_S4x512x128x128_S_d0_1_2_3 : S4x512x128x128.ReducesTo [0, 1, 2, 3] S_
  h_S_ : 0 < S_.numel
  bcast_S_S19x5x512 : S_.BroadcastsInDim S19x5x512 (![] : Fin 0 → Fin S19x5x512.rank)
  reducesTo_S19x5x512_S_d0_1_2 : S19x5x512.ReducesTo [0, 1, 2] S_
  bcast_S_S512 : S_.BroadcastsInDim S512 (![] : Fin 0 → Fin S512.rank)
  reducesTo_S512_S_d0 : S512.ReducesTo [0] S_
  bcast_S_S19 : S_.BroadcastsInDim S19 (![] : Fin 0 → Fin S19.rank)
  reducesTo_S19_S_d0 : S19.ReducesTo [0] S_

variable [Facts]

def fn_part1 {F : FTy → Type} [FloatOps F] (main_arg4 : FVec F S512 .f32) (main_arg5 : FVec F S19 .f32) (main_arg6 : FVec F S19 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S19 .f32 := Host.absf main_arg5
  let main_cst_8 : FVec F S_ .f32 := constant S_ .f32 0x7F800000#32
  let main_v25 : FVec F S19 .f32 := broadcastInDim S19 ![] bcast_S_S19 main_cst_8
  let main_v26 : IVec S19 1 := cmpf .olt main_v24 main_v25
  let main_c_9 : IVec S_ 1 := constantI S_ 1 1#1
  let main_v27 : IVec S_ 1 := (fun x v => Host.reduce IntOp.andi x v reducesTo_S19_S_d0 h_S_) main_v26 main_c_9
  let main_v28 : IVec S_ 1 := andi main_v23 main_v27
  let main_v29 : FVec F S19 .f32 := Host.absf main_arg6
  let main_cst_10 : FVec F S_ .f32 := constant S_ .f32 0x7F800000#32
  let main_v30 : FVec F S19 .f32 := broadcastInDim S19 ![] bcast_S_S19 main_cst_10
  let main_v31 : IVec S19 1 := cmpf .olt main_v29 main_v30
  let main_c_11 : IVec S_ 1 := constantI S_ 1 1#1
  let main_v32 : IVec S_ 1 := (fun x v => Host.reduce IntOp.andi x v reducesTo_S19_S_d0 h_S_) main_v31 main_c_11
  let main_v33 : IVec S_ 1 := andi main_v28 main_v32
  main_v33

def fn {F : FTy → Type} [FloatOps F] (main_arg0 : FVec F S4x512x128x128 .f32) (main_arg1 : FVec F S19x5x512 .f32) (main_arg2 : FVec F S19x5x512 .f32) (main_arg3 : FVec F S512 .f32) (main_arg4 : FVec F S512 .f32) (main_arg5 : FVec F S19 .f32) (main_arg6 : FVec F S19 .f32) : IVec S_ 1 :=
  let main_v0 : FVec F S4x512x128x128 .f32 := Host.absf main_arg0
  let main_cst : FVec F S_ .f32 := constant S_ .f32 0x7F800000#32
  let main_v1 : FVec F S4x512x128x128 .f32 := broadcastInDim S4x512x128x128 ![] bcast_S_S4x512x128x128 main_cst
  let main_v2 : IVec S4x512x128x128 1 := cmpf .olt main_v0 main_v1
  let main_c : IVec S_ 1 := constantI S_ 1 1#1
  let main_v3 : IVec S_ 1 := (fun x v => Host.reduce IntOp.andi x v reducesTo_S4x512x128x128_S_d0_1_2_3 h_S_) main_v2 main_c
  let main_v4 : FVec F S19x5x512 .f32 := Host.absf main_arg1
  let main_cst_0 : FVec F S_ .f32 := constant S_ .f32 0x7F800000#32
  let main_v5 : FVec F S19x5x512 .f32 := broadcastInDim S19x5x512 ![] bcast_S_S19x5x512 main_cst_0
  let main_v6 : IVec S19x5x512 1 := cmpf .olt main_v4 main_v5
  let main_c_1 : IVec S_ 1 := constantI S_ 1 1#1
  let main_v7 : IVec S_ 1 := (fun x v => Host.reduce IntOp.andi x v reducesTo_S19x5x512_S_d0_1_2 h_S_) main_v6 main_c_1
  let main_v8 : IVec S_ 1 := andi main_v3 main_v7
  let main_v9 : FVec F S19x5x512 .f32 := Host.absf main_arg2
  let main_cst_2 : FVec F S_ .f32 := constant S_ .f32 0x7F800000#32
  let main_v10 : FVec F S19x5x512 .f32 := broadcastInDim S19x5x512 ![] bcast_S_S19x5x512 main_cst_2
  let main_v11 : IVec S19x5x512 1 := cmpf .olt main_v9 main_v10
  let main_c_3 : IVec S_ 1 := constantI S_ 1 1#1
  let main_v12 : IVec S_ 1 := (fun x v => Host.reduce IntOp.andi x v reducesTo_S19x5x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S_ : Shape := ⟨0, ![]⟩
abbrev S19x5 : Shape := ⟨2, ![19, 5]⟩
abbrev S19x5x1 : Shape := ⟨3, ![19, 5, 1]⟩
abbrev S5x19x512 : Shape := ⟨3, ![5, 19, 512]⟩
abbrev S95x512 : Shape := ⟨2, ![95, 512]⟩
abbrev S512x95 : Shape := ⟨2, ![512, 95]⟩
abbrev S95 : Shape := ⟨1, ![95]⟩
abbrev S1x95 : Shape := ⟨2, ![1, 95]⟩
abbrev S512x1x1 : Shape := ⟨3, ![512, 1, 1]⟩
abbrev S1x19 : Shape := ⟨2, ![1, 19]⟩
abbrev S4x19x128x128 : Shape := ⟨4, ![4, 19, 128, 128]⟩
abbrev S1x512x16x128 : Shape := ⟨4, ![1, 512, 16, 128]⟩
abbrev S1x19x16x128 : Shape := ⟨4, ![1, 19, 16, 128]⟩
abbrev S512x16x128 : Shape := ⟨3, ![512, 16, 128]⟩
abbrev S16x128 : Shape := ⟨2, ![16, 128]⟩
abbrev S1x16x128 : Shape := ⟨3, ![1, 16, 128]⟩
abbrev S16x128x512 : Shape := ⟨3, ![16, 128, 512]⟩
abbrev S2048x512 : Shape := ⟨2, ![2048, 512]⟩
abbrev S2048x95 : Shape := ⟨2, ![2048, 95]⟩
abbrev S2048x19 : Shape := ⟨2, ![2048, 19]⟩
abbrev S2048 : Shape := ⟨1, ![2048]⟩
abbrev S2048x1 : Shape := ⟨2, ![2048, 1]⟩
abbrev S16x128x19 : Shape := ⟨3, ![16, 128, 19]⟩
abbrev S19x16x128 : Shape := ⟨3, ![19, 16, 128]⟩

abbrev nBuf : Space → Nat
  | .hbm => 44
  | .vmem => 12
  | .smem => 0
  | _ => 0

abbrev bufTy : (tb : Table) → Fin (tcTables nBuf tb) → BufTy
  | .hbm, ⟨0, _⟩ => ⟨S4x512x128x128, .f32⟩
  | .hbm, ⟨1, _⟩ => ⟨S19x5x512, .f32⟩
  | .hbm, ⟨2, _⟩ => ⟨S19x5x512, .f32⟩
  | .hbm, ⟨3, _⟩ => ⟨S512, .f32⟩
  | .hbm, ⟨4, _⟩ => ⟨S512, .f32⟩
  | .hbm, ⟨5, _⟩ => ⟨S19, .f32⟩
  | .hbm, ⟨6, _⟩ => ⟨S19, .f32⟩
  | .hbm, ⟨7, _⟩ => ⟨S19x5x512, .f32⟩
  | .hbm, ⟨8, _⟩ => ⟨S_, .f32⟩
  | .hbm, ⟨9, _⟩ => ⟨S19x5, .f32⟩
  | .hbm, ⟨10, _⟩ => ⟨S19x5x1, .f32⟩
  | .hbm, ⟨11, _⟩ => ⟨S19x5x1, .f32⟩
  | .hbm, ⟨12, _⟩ => ⟨S_, .f32⟩
  | .hbm, ⟨13, _⟩ => ⟨S19x5x1, .f32⟩
  | .hbm, ⟨14, _⟩ => ⟨S19x5x1, .f32⟩
  | .hbm, ⟨15, _⟩ => ⟨S19x5x512, .f32⟩
  | .hbm, ⟨16, _⟩ => ⟨S19x5x512, .f32⟩
  | .hbm, ⟨17, _⟩ => ⟨S19x5x512, .f32⟩
  | .hbm, ⟨18, _⟩ => ⟨S_, .f32⟩
  | .hbm, ⟨19, _⟩ => ⟨S19x5x512, .f32⟩
  | .hbm, ⟨20, _⟩ => ⟨S19x5x512, .f32⟩
  | .hbm, ⟨21, _⟩ => ⟨S5x19x512, .f32⟩
  | .hbm, ⟨22, _⟩ => ⟨S95x512, .f32⟩
  | .hbm, ⟨23, _⟩ => ⟨S5x19x512, .f32⟩
  | .hbm, ⟨24, _⟩ => ⟨S95x512, .f32⟩
  | .hbm, ⟨25, _⟩ => ⟨S5x19x512, .f32⟩
  | .hbm, ⟨26, _⟩ => ⟨S95x512, .f32⟩
  | .hbm, ⟨27, _⟩ => ⟨S512x95, .f32⟩
  | .hbm, ⟨28, _⟩ => ⟨S95x512, .f32⟩
  | .hbm, ⟨29, _⟩ => ⟨S512x95, .f32⟩
  | .hbm, ⟨30, _⟩ => ⟨S95x512, .f32⟩
  | .hbm, ⟨31, _⟩ => ⟨S95x512, .f32⟩
  | .hbm, ⟨32, _⟩ => ⟨S_, .f32⟩
  | .hbm, ⟨33, _⟩ => ⟨S95, .f32⟩
  | .hbm, ⟨34, _⟩ => ⟨S1x95, .f32⟩
  | .hbm, ⟨35, _⟩ => ⟨S95x512, .f32⟩
  | .hbm, ⟨36, _⟩ => ⟨S_, .f32⟩
  | .hbm, ⟨37, _⟩ => ⟨S95, .f32⟩
  | .hbm, ⟨38, _⟩ => ⟨S1x95, .f32⟩
  | .hbm, ⟨39, _⟩ => ⟨S512x1x1, .f32⟩
  | .hbm, ⟨40, _⟩ => ⟨S512x1x1, .f32⟩
  | .hbm, ⟨41, _⟩ => ⟨S1x19, .f32⟩
  | .hbm, ⟨42, _⟩ => ⟨S1x19, .f32⟩
  | .hbm, ⟨43, _⟩ => ⟨S4x19x128x128, .f32⟩
  | .local _ .vmem, ⟨0, _⟩ => ⟨S1x512x16x128, .f32⟩
  | .local _ .vmem, ⟨1, _⟩ => ⟨S1x512x16x128, .f32⟩
  | .local _ .vmem, ⟨2, _⟩ => ⟨S512x95, .f32⟩
  | .local _ .vmem, ⟨3, _⟩ => ⟨S512x95, .f32⟩
  | .local _ .vmem, ⟨4, _⟩ => ⟨S1x95, .f32⟩
  | .local _ .vmem, ⟨5, _⟩ => ⟨S1x95, .f32⟩
  | .local _ .vmem, ⟨6, _⟩ => ⟨S512x1x1, .f32⟩
  | .local _ .vmem, ⟨7, _⟩ => ⟨S512x1x1, .f32⟩
  | .local _ .vmem, ⟨8, _⟩ => ⟨S1x19, .f32⟩
  | .local _ .vmem, ⟨9, _⟩ => ⟨S1x19, .f32⟩
  | .local _ .vmem, ⟨10, _⟩ => ⟨S1x19x16x128, .f32⟩
  | .local _ .vmem, ⟨11, _⟩ => ⟨S1x19x16x128, .f32⟩
  | _, _ => ⟨S4x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x95 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x95 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x95 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x95 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x19 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x19 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x19x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  reducesTo_S19x5x512_S19x5_d2 : S19x5x512.ReducesTo [2] S19x5
  h_S_ : 0 < S_.numel
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x512_0_1_2 : S19x5x1.BroadcastsInDim S19x5x512 (![0, 1, 2] : Fin 3 → Fin S19x5x512.rank)
  bcast_S_S19x5x512 : S_.BroadcastsInDim S19x5x512 (![] : Fin 0 → Fin S19x5x512.rank)
  transposes_S19x5x512_S5x19x512_1_0_2 : S19x5x512.Transposes [1, 0, 2] S5x19x512
  shapeCasts_S5x19x512_S95x512 : S5x19x512.ShapeCasts S95x512
  transposes_S95x512_S512x95_1_0 : S95x512.Transposes [1, 0] S512x95
  reducesTo_S95x512_S95_d1 : S95x512.ReducesTo [1] S95
  bcast_S95_S1x95_1 : S95.BroadcastsInDim S1x95 (![1] : Fin 1 → Fin S1x95.rank)
  shapeCasts_S512_S512x1x1 : S512.ShapeCasts S512x1x1
  shapeCasts_S19_S1x19 : S19.ShapeCasts S1x19
  inb_S1x512x16x128_S1x512x16x128_0_0_0_0 : ∀ a, (![0, 0, 0, 0] : Fin 4 → Nat) a + S1x512x16x128.size a ≤ S1x512x16x128.size a
  h_S1x512x16x128 : 0 < S1x512x16x128.numel
  shapeCasts_S1x512x16x128_S512x16x128 : S1x512x16x128.ShapeCasts S512x16x128
  reduces_S512x16x128_S16x128 : S512x16x128.Reduces [0] S16x128
  shapeCasts_S16x128_S1x16x128 : S16x128.ShapeCasts S1x16x128
  broadcasts_S1x16x128_S512x16x128 : S1x16x128.Broadcasts S512x16x128
  inb_S512x1x1_S512x1x1_0_0_0 : ∀ a, (![0, 0, 0] : Fin 3 → Nat) a + S512x1x1.size a ≤ S512x1x1.size a
  h_S512x1x1 : 0 < S512x1x1.numel
  shapeCasts_S512x1x1_S512x1x1 : S512x1x1.ShapeCasts S512x1x1
  broadcasts_S512x1x1_S512x16x128 : S512x1x1.Broadcasts S512x16x128
  transposes_S512x16x128_p1_2_0_S16x128x512 : S512x16x128.Transposes [1, 2, 0] S16x128x512
  shapeCasts_S16x128x512_S2048x512 : S16x128x512.ShapeCasts S2048x512
  bitsLt_bf16_f32 : FTy.bits .bf16 < FTy.bits .f32
  inb_S512x95_S512x95_0_0 : ∀ a, (![0, 0] : Fin 2 → Nat) a + S512x95.size a ≤ S512x95.size a
  h_S512x95 : 0 < S512x95.numel
  shapeCasts_S512x95_S512x95 : S512x95.ShapeCasts S512x95
  inb_S1x95_S1x95_0_0 : ∀ a, (![0, 0] : Fin 2 → Nat) a + S1x95.size a ≤ S1x95.size a
  h_S1x95 : 0 < S1x95.numel
  shapeCasts_S1x95_S1x95 : S1x95.ShapeCasts S1x95
  broadcasts_S1x95_S2048x95 : S1x95.Broadcasts S2048x95
  slices_S2048x95_o0_0_S2048x19 : S2048x95.Slices ![0, 0] S2048x19
  slices_S2048x95_o0_19_S2048x19 : S2048x95.Slices ![0, 19] S2048x19
  slices_S2048x95_o0_38_S2048x19 : S2048x95.Slices ![0, 38] S2048x19
  slices_S2048x95_o0_57_S2048x19 : S2048x95.Slices ![0, 57] S2048x19
  slices_S2048x95_o0_76_S2048x19 : S2048x95.Slices ![0, 76] S2048x19
  reduces_S2048x19_S2048 : S2048x19.Reduces [1] S2048
  shapeCasts_S2048_S2048x1 : S2048.ShapeCasts S2048x1
  broadcasts_S2048x1_S2048x19 : S2048x1.Broadcasts S2048x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S2048x19 : S1x19.Broadcasts S2048x19
  shapeCasts_S2048x19_S16x128x19 : S2048x19.ShapeCasts S16x128x19
  transposes_S16x128x19_p2_0_1_S19x16x128 : S16x128x19.Transposes [2, 0, 1] S19x16x128
  inb_S1x19x16x128_S1x19x16x128_0_0_0_0 : ∀ a, (![0, 0, 0, 0] : Fin 4 → Nat) a + S1x19x16x128.size a ≤ S1x19x16x128.size a
  h_S1x19x16x128 : 0 < S1x19x16x128.numel
  shapeCasts_S1x19x16x128_S19x16x128 : S1x19x16x128.ShapeCasts S19x16x128
  shapeCasts_S19x16x128_S1x19x16x128 : S19x16x128.ShapeCasts S1x19x16x128
  dot_S2048x512_S512x95_S2048x95_1_0_0_1_n_n_wf : DotDims.WF S2048x512 S512x95 S2048x95 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x128.size a ≤ S4x512x128x128.size a
  hwx0_0 : ∀ i : grid0.Coords, EltTy.bits .f32 = 32 ∨ (Rect.block (s := S4x512x128x128) S1x512x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x95.size a ≤ S512x95.size a
  hwx0_1 : ∀ i : grid0.Coords, EltTy.bits .f32 = 32 ∨ (Rect.block (s := S512x95) S512x95.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x95.size a ≤ S512x95.size a
  hwx0_2 : ∀ i : grid0.Coords, EltTy.bits .f32 = 32 ∨ (Rect.block (s := S512x95) S512x95.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x95.size a ≤ S1x95.size a
  hwx0_3 : ∀ i : grid0.Coords, EltTy.bits .f32 = 32 ∨ (Rect.block (s := S1x95) S1x95.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x95.size a ≤ S1x95.size a
  hwx0_4 : ∀ i : grid0.Coords, EltTy.bits .f32 = 32 ∨ (Rect.block (s := S1x95) S1x95.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1x1.size a ≤ S512x1x1.size a
  hwx0_5 : ∀ i : grid0.Coords, EltTy.bits .f32 = 32 ∨ (Rect.block (s := S512x1x1) S512x1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1x1.size a ≤ S512x1x1.size a
  hwx0_6 : ∀ i : grid0.Coords, EltTy.bits .f32 = 32 ∨ (Rect.block (s := S512x1x1) S512x1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x19.size a ≤ S1x19.size a
  hwx0_7 : ∀ i : grid0.Coords, EltTy.bits .f32 = 32 ∨ (Rect.block (s := S1x19) S1x19.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x19.size a ≤ S1x19.size a
  hwx0_8 : ∀ i : grid0.Coords, EltTy.bits .f32 = 32 ∨ (Rect.block (s := S1x19) S1x19.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x19x16x128.size a ≤ S4x19x128x128.size a
  hwx0_9 : ∀ i : grid0.Coords, EltTy.bits .f32 = 32 ∨ (Rect.block (s := S4x19x128x128) S1x19x16x128.size (cc0_transform_9 i) (hinb0_9 i)).WholeWords (EltTy.packing .f32)

variable [Facts₀]

def dot_S2048x512_S512x95_S2048x95_1_0_0_1_n_n : DotDims S2048x512 S512x95 S2048x95 where
  lhsContracting := [1]
  rhsContracting := [0]
  lhsNonContracting := [0]
  rhsNonContracting := [1]
  lhsBatch := []
  rhsBatch := []
  wf := dot_S2048x512_S512x95_S2048x95_1_0_0_1_n_n_wf

abbrev win0_0 : Pipeline.Window sig grid0 :=
  Pipeline.Window.ofSpec (Memref.whole main_arg0) S1x512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x95.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x95.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x95.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x95.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S512x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x19.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x19.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x19x16x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x512x128x128 : Shape := ⟨4, ![4, 512, 128, 128]⟩
abbrev S19x5x512 : Shape := ⟨3, ![19, 5, 512]⟩
abbrev S512 : Shape := ⟨1, ![512]⟩
abbrev S19 : Shape := ⟨1, ![19]⟩
abbrev S4x128x128x512 : Shape := ⟨4, ![4, 128, 128, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S19x5 : Shape := ⟨2, ![19, 5]⟩
abbrev S19x5x1 : Shape := ⟨3, ![19, 5, 1]⟩
abbrev S95x512 : Shape := ⟨2, ![95, 512]⟩
abbrev S512x95 : Shape := ⟨2, ![512, 95]⟩
abbrev S65536x95 : Shape := ⟨2, ![65536, 95]⟩
abbrev S95 : Shape := ⟨1, ![95]⟩
abbrev S1x95 : Shape := ⟨2, ![1, 95]⟩
abbrev S65536x19x5 : Shape := ⟨3, ![65536, 19, 5]⟩
abbrev S65536x19 : Shape := ⟨2, ![65536, 19]⟩
abbrev S1x19 : Shape := ⟨2, ![1, 19]⟩
abbrev S4x128x128x19 : Shape := ⟨4, ![4, 128, 128, 19]⟩
abbrev S4x19x128x128 : Shape := ⟨4, ![4, 19, 128, 128]⟩

abbrev nBuf : Space → Nat
  | .hbm => 131
  | .vmem => 0
  | .smem => 0
  | _ => 0

abbrev hbmTy0_0 (i : Nat) : BufTy := match i % 128 with
  | 0 => ⟨S4x512x128x128, .f32⟩
  | 1 => ⟨S19x5x512, .f32⟩
  | 2 => ⟨S19x5x512, .f32⟩
  | 3 => ⟨S512, .f32⟩
  | 4 => ⟨S512, .f32⟩
  | 5 => ⟨S19, .f32⟩
  | 6 => ⟨S19, .f32⟩
  | 7 => ⟨S4x128x128x512, .f32⟩
  | 8 => ⟨S65536x512, .f32⟩
  | 9 => ⟨S_, .f32⟩
  | 10 => ⟨S65536, .f32⟩
  | 11 => ⟨S65536x1, .f32⟩
  | 12 => ⟨S_, .f32⟩
  | 13 => ⟨S65536x1, .f32⟩
  | 14 => ⟨S65536x1, .f32⟩
  | 15 => ⟨S65536x512, .f32⟩
  | 16 => ⟨S65536x512, .f32⟩
  | 17 => ⟨S65536x512, .f32⟩
  | 18 => ⟨S_, .f32⟩
  | 19 => ⟨S65536, .f32⟩
  | 20 => ⟨S65536x1, .f32⟩
  | 21 => ⟨S_, .f32⟩
  | 22 => ⟨S65536x1, .f32⟩
  | 23 => ⟨S65536x1, .f32⟩
  | 24 => ⟨S65536x512, .f32⟩
  | 25 => ⟨S65536x512, .f32⟩
  | 26 => ⟨S_, .f32⟩
  | 27 => ⟨S65536x1, .f32⟩
  | 28 => ⟨S65536x1, .f32⟩
  | 29 => ⟨S65536x1, .f32⟩
  | 30 => ⟨S65536x512, .f32⟩
  | 31 => ⟨S65536x512, .f32⟩
  | 32 => ⟨S1x512, .f32⟩
  | 33 => ⟨S65536x512, .f32⟩
  | 34 => ⟨S65536x512, .f32⟩
  | 35 => ⟨S1x512, .f32⟩
  | 36 => ⟨S65536x512, .f32⟩
  | 37 => ⟨S65536x512, .f32⟩
  | 38 => ⟨S65536x512, .f32⟩
  | 39 => ⟨S_, .f32⟩
  | 40 => ⟨S65536, .f32⟩
  | 41 => ⟨S65536x1, .f32⟩
  | 42 => ⟨S65536x1, .f32⟩
  | 43 => ⟨S_, .f32⟩
  | 44 => ⟨S65536x1, .f32⟩
  | 45 => ⟨S65536x1, .f32⟩
  | 46 => ⟨S65536x512, .f32⟩
  | 47 => ⟨S65536x512, .f32⟩
  | 48 => ⟨S19x5x512, .f32⟩
  | 49 => ⟨S_, .f32⟩
  | 50 => ⟨S19x5, .f32⟩
  | 51 => ⟨S19x5x1, .f32⟩
  | 52 => ⟨S19x5x1, .f32⟩
  | 53 => ⟨S_, .f32⟩
  | 54 => ⟨S19x5x1, .f32⟩
  | 55 => ⟨S19x5x1, .f32⟩
  | 56 => ⟨S19x5x512, .f32⟩
  | 57 => ⟨S19x5x512, .f32⟩
  | 58 => ⟨S95x512, .f32⟩
  | 59 => ⟨S95x512, .f32⟩
  | 60 => ⟨S95x512, .f32⟩
  | 61 => ⟨S_, .f32⟩
  | 62 => ⟨S95x512, .f32⟩
  | 63 => ⟨S95x512, .f32⟩
  | 64 => ⟨S65536x512, .f32⟩
  | 65 => ⟨S512x95, .f32⟩
  | 66 => ⟨S65536x95, .f32⟩
  | 67 => ⟨S95x512, .f32⟩
  | 68 => ⟨S512x95, .f32⟩
  | 69 => ⟨S65536x95, .f32⟩
  | 70 => ⟨S95x512, .f32⟩
  | 71 => ⟨S95x512, .f32⟩
  | 72 => ⟨S_, .f32⟩
  | 73 => ⟨S95, .f32⟩
  | 74 => ⟨S_, .f32⟩
  | 75 => ⟨S65536x95, .f32⟩
  | 76 => ⟨S65536x95, .f32⟩
  | 77 => ⟨S65536x95, .f32⟩
  | 78 => ⟨S1x95, .f32⟩
  | 79 => ⟨S65536x95, .f32⟩
  | 80 => ⟨S65536x95, .f32⟩
  | 81 => ⟨S95x512, .f32⟩
  | 82 => ⟨S_, .f32⟩
  | 83 => ⟨S95, .f32⟩
  | 84 => ⟨S_, .f32⟩
  | 85 => ⟨S_, .f32⟩
  | 86 => ⟨S_, .f32⟩
  | 87 => ⟨S_, .f32⟩
  | 88 => ⟨S_, .f32⟩
  | 89 => ⟨S65536x95, .f32⟩
  | 90 => ⟨S65536x95, .f32⟩
  | 91 => ⟨S1x95, .f32⟩
  | 92 => ⟨S65536x95, .f32⟩
  | 93 => ⟨S65536x95, .f32⟩
  | 94 => ⟨S_, .f32⟩
  | 95 => ⟨S65536x95, .f32⟩
  | 96 => ⟨S65536x95, .f32⟩
  | 97 => ⟨S65536x19x5, .f32⟩
  | 98 => ⟨S_, .f32⟩
  | 99 => ⟨S65536x19, .f32⟩
  | 100 => ⟨S_, .f32⟩
  | 101 => ⟨S65536, .f32⟩
  | 102 => ⟨S65536x1, .f32⟩
  | 103 => ⟨S_, .f32⟩
  | 104 => ⟨S65536x1, .f32⟩
  | 105 => ⟨S65536x1, .f32⟩
  | 106 => ⟨S65536x19, .f32⟩
  | 107 => ⟨S65536x19, .f32⟩
  | 108 => ⟨S65536x19, .f32⟩
  | 109 => ⟨S_, .f32⟩
  | 110 => ⟨S65536, .f32⟩
  | 111 => ⟨S65536x1, .f32⟩
  | 112 => ⟨S_, .f32⟩
  | 113 => ⟨S65536x1, .f32⟩
  | 114 => ⟨S65536x1, .f32⟩
  | 115 => ⟨S65536x19, .f32⟩
  | 116 => ⟨S65536x19, .f32⟩
  | 117 => ⟨S_, .f32⟩
  | 118 => ⟨S65536x1, .f32⟩
  | 119 => ⟨S65536x1, .f32⟩
  | 120 => ⟨S65536x1, .f32⟩
  | 121 => ⟨S65536x19, .f32⟩
  | 122 => ⟨S65536x19, .f32⟩
  | 123 => ⟨S1x19, .f32⟩
  | 124 => ⟨S65536x19, .f32⟩
  | 125 => ⟨S65536x19, .f32⟩
  | 126 => ⟨S1x19, .f32⟩
  | 127 => ⟨S65536x19, .f32⟩
  | _ => ⟨S4x512x128x128, .f32⟩

abbrev hbmTy0_1 (i : Nat) : BufTy := match i % 128 with
  | 0 => ⟨S65536x19, .f32⟩
  | 1 => ⟨S4x128x128x19, .f32⟩
  | 2 => ⟨S4x19x128x128, .f32⟩
  | _ => ⟨S4x512x128x128, .f32⟩

abbrev hbmTy (i : Nat) : BufTy := match i / 128 with
  | 0 => hbmTy0_0 i
  | 1 => hbmTy0_1 i
  | _ => ⟨S4x512x128x128, .f32⟩

abbrev bufTy : (tb : Table) → Fin (tcTables nBuf tb) → BufTy
  | .hbm, ⟨i, _⟩ => hbmTy i
  | _, _ => ⟨S4x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  transposes_S4x512x128x128_S4x128x128x512_0_2_3_1 : S4x512x128x128.Transposes [0, 2, 3, 1] S4x128x128x512
  shapeCasts_S4x128x128x512_S65536x512 : S4x128x128x512.ShapeCasts S65536x512
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S19x5x512_S19x5_d2 : S19x5x512.ReducesTo [2] S19x5
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x512_0_1_2 : S19x5x1.BroadcastsInDim S19x5x512 (![0, 1, 2] : Fin 3 → Fin S19x5x512.rank)
  shapeCasts_S19x5x512_S95x512 : S19x5x512.ShapeCasts S95x512
  bcast_S_S95x512 : S_.BroadcastsInDim S95x512 (![] : Fin 0 → Fin S95x512.rank)
  transposes_S95x512_S512x95_1_0 : S95x512.Transposes [1, 0] S512x95
  reducesTo_S95x512_S95_d1 : S95x512.ReducesTo [1] S95
  bcast_S_S65536x95 : S_.BroadcastsInDim S65536x95 (![] : Fin 0 → Fin S65536x95.rank)
  bcast_S95_S1x95_1 : S95.BroadcastsInDim S1x95 (![1] : Fin 1 → Fin S1x95.rank)
  bcast_S1x95_S65536x95_0_1 : S1x95.BroadcastsInDim S65536x95 (![0, 1] : Fin 2 → Fin S65536x95.rank)
  shapeCasts_S65536x95_S65536x19x5 : S65536x95.ShapeCasts S65536x19x5
  reducesTo_S65536x19x5_S65536x19_d2 : S65536x19x5.ReducesTo [2] S65536x19
  reducesTo_S65536x19_S65536_d1 : S65536x19.ReducesTo [1] S65536
  bcast_S65536x1_S65536x19_0_1 : S65536x1.BroadcastsInDim S65536x19 (![0, 1] : Fin 2 → Fin S65536x19.rank)
  bcast_S19_S1x19_1 : S19.BroadcastsInDim S1x19 (![1] : Fin 1 → Fin S1x19.rank)
  bcast_S1x19_S65536x19_0_1 : S1x19.BroadcastsInDim S65536x19 (![0, 1] : Fin 2 → Fin S65536x19.rank)
  shapeCasts_S65536x19_S4x128x128x19 : S65536x19.ShapeCasts S4x128x128x19
  transposes_S4x128x128x19_S4x19x128x128_0_3_1_2 : S4x128x128x19.Transposes [0, 3, 1, 2] S4x19x128x128
  dot_S65536x512_S512x95_S65536x95_1_0_0_1_n_n_wf : DotDims.WF S65536x512 S512x95 S65536x95 [1] [0] [0] [1] [] []

variable [Facts₀]

def dot_S65536x512_S512x95_S65536x95_1_0_0_1_n_n : DotDims S65536x512 S512x95 S65536x95 where
  lhsContracting := [1]
  rhsContracting := [0]
  lhsNonContracting := [0]
  rhsNonContracting := [1]
  lhsBatch := []
  rhsBatch := []
  wf := dot_S65536x512_S512x95_S65536x95_1_0_0_1_n_n_wf

class Facts : Prop extends Facts₀ where

variable [Facts]
-- ==== Proof.Spec.lean ====
/-
  The per-pixel Gaussian-mixture head, as one function of the argument arrays.

  For a pixel (b, h, w) the 512 channel values are layer-normalised (mean and variance over the channels, an affine
  map), then scaled to unit Euclidean length. For class k and component m the mixture mean is the row means[k, m, ·]
  scaled to unit length, the standard deviation the row diagonal[k, m, ·]; the log-density core is
  −½ (Σ f²/σ² − 2 Σ f μ/σ² + Σ μ²/σ²) − Σ log σ, less a constant c. The class score is the maximum over the five
  components, and the nineteen class scores are layer-normalised again (mean and variance over the classes, an affine
  map). Because the last step subtracts the mean over the classes, the constant c does not matter as long as it is a
  real number: that is the law which joins the two programs, which subtract different constants.
-/
import Idealize.ShloMosaic.PureOps.Ideal.Laws
import Idealize.ShloMosaic.Lib.ValueIdx

noncomputable section

namespace Gmm

open Idealize.ShloMosaic Idealize.ShloMosaic.ValueIdx

/-! ## The shapes, written out -/

abbrev SX : Shape := ⟨4, ![4, 512, 128, 128]⟩
abbrev SM : Shape := ⟨3, ![19, 5, 512]⟩
abbrev SC : Shape := ⟨1, ![512]⟩
abbrev SK : Shape := ⟨1, ![19]⟩
abbrev SO : Shape := ⟨4, ![4, 19, 128, 128]⟩
abbrev SBX : Shape := ⟨4, ![1, 512, 16, 128]⟩
abbrev SBO : Shape := ⟨4, ![1, 19, 16, 128]⟩
abbrev ST : Shape := ⟨2, ![512, 95]⟩
abbrev SQ : Shape := ⟨2, ![1, 95]⟩
abbrev SA : Shape := ⟨3, ![512, 1, 1]⟩
abbrev SG : Shape := ⟨2, ![1, 19]⟩

/-! ## The constants, as the words both programs carry -/

/-- 512, the number of channels. -/
def n512 : EReal := Ideal.ofBits .f32 0x44000000#32
/-- 19, the number of classes. -/
def n19 : EReal := Ideal.ofBits .f32 0x41980000#32
/-- The variance offset of both layer norms (the float nearest 1e-5). -/
def epsLN : EReal := Ideal.ofBits .f32 0x3727C5AC#32
/-- The floor under a Euclidean length (the float nearest 1e-12). -/
def epsL2 : EReal := Ideal.ofBits .f32 0x2B8CBCCC#32
def two : EReal := Ideal.ofBits .f32 0x40000000#32
def negHalf : EReal := Ideal.ofBits .f32 0xBF000000#32
def one : EReal := Ideal.ofBits .f32 0x3F800000#32
/-- The constant the kernel subtracts: a float literal near 256 · log 2π. -/
def cKernel : EReal := Ideal.ofBits .f32 0x43EB3F8E#32
/-- The constant the reference subtracts: 256 times the logarithm of the float nearest 2π. -/
def cRef : EReal := Ideal.ofBits .f32 0x43800000#32 * Ideal.log (Ideal.ofBits .f32 0x40C90FDB#32)

/-! ## One pixel's features -/

/-- Layer norm over the 512 channels: centre, scale by the inverse root of the variance plus the offset, affine map. -/
def lnorm (xs g b : Fin 512 → EReal) : Fin 512 → EReal := fun ch =>
  (xs ch - Ideal.div (∑ k, xs k) n512)
      * Ideal.rsqrt (Ideal.div (∑ k, (xs k - Ideal.div (∑ k', xs k') n512) * (xs k - Ideal.div (∑ k', xs k') n512)) n512 + epsLN)
      * g ch + b ch

/-- Scaling to unit Euclidean length, the length floored. -/
def l2n (y : Fin 512 → EReal) : Fin 512 → EReal := fun ch =>
  Ideal.div (y ch) (max (Ideal.sqrt (∑ k, y k * y k)) epsL2)

/-- The pixel's feature vector. -/
def feat (xs g b : Fin 512 → EReal) : Fin 512 → EReal := l2n (lnorm xs g b)

/-! ## One component's log-density core -/

/-- The inverse variance 1/σ² along a row. -/
def ivOf (sg : Fin 512 → EReal) : Fin 512 → EReal := fun d => Ideal.div one (sg d * sg d)

/-- −½ (Σ f2·iv − 2 Σ f1·mv + q3) − ld over given vectors f1, f2 (the features and their squares), given columns iv and
    mv = μ·iv, and given sums q3 = Σ μ²·iv, ld = Σ log σ: the form the kernel evaluates from two matrix products and
    its four tables. -/
def lpK2 (f1 f2 ivc mvc : Fin 512 → EReal) (q3 ld : EReal) : EReal :=
  negHalf * (((∑ d, f2 d * ivc d) - two * (∑ d, f1 d * mvc d)) + q3) - ld

/-- The same with f2 the squares of f1. -/
def lpK (f ivc mvc : Fin 512 → EReal) (q3 ld : EReal) : EReal :=
  lpK2 f (fun d => f d * f d) ivc mvc q3 ld

/-- The same with the columns and sums computed from the component's mean row and deviation row. -/
def comp (f mu sg : Fin 512 → EReal) : EReal :=
  lpK f (ivOf sg) (fun d => mu d * ivOf sg d) (∑ d, (mu d * mu d) * ivOf sg d) (∑ d, Ideal.log (sg d))

/-! ## The head: maximum over components, layer norm over classes -/

/-- The maximum of five, associated from the left. -/
def max5 (l : Fin 5 → EReal) : EReal := max (max (max (max (l 0) (l 1)) (l 2)) (l 3)) (l 4)

/-- Centring over the 19 classes. -/
def centre (v : Fin 19 → EReal) : Fin 19 → EReal := fun k => v k - Ideal.div (∑ j, v j) n19

/-- Layer norm over the 19 classes. -/
def headLN (v g b : Fin 19 → EReal) : Fin 19 → EReal := fun k =>
  (v k - Ideal.div (∑ j, v j) n19)
      * Ideal.rsqrt (Ideal.div (∑ j, (v j - Ideal.div (∑ j', v j') n19) * (v j - Ideal.div (∑ j', v j') n19)) n19 + epsLN)
      * g k + b k

theorem headLN_eq_centre (v g b : Fin 19 → EReal) (k : Fin 19) :
    headLN v g b k = centre v k * Ideal.rsqrt (Ideal.div (∑ j, centre v j * centre v j) n19 + epsLN) * g k + b k := rfl

/-- Column m·19 + k of the kernel's component-major tables. -/
def pIdx (m : Fin 5) (k : Fin 19) : Fin 95 := ⟨m.val * 19 + k.val, by have := m.isLt; have := k.isLt; omega⟩

/-- Row k·5 + m of the reference's class-major tables. -/
def qIdx (k : Fin 19) (m : Fin 5) : Fin 95 := ⟨k.val * 5 + m.val, by have := m.isLt; have := k.isLt; omega⟩

/-! ## The result -/

/-- The result at (b, k, h, w), with c the constant subtracted from every component's core. -/
def Gat (c : EReal) (x : SX.Idx → EReal) (means diag : SM.Idx → EReal) (fg fb : SC.Idx → EReal) (mg mb : SK.Idx → EReal)
    (b : Fin 4) (k : Fin 19) (h w : Fin 128) : EReal :=
  headLN (fun k' => max5 fun m =>
      comp (feat (fun ch => x (ix4 b ch h w)) (fun ch => fg (ix1 ch)) (fun ch => fb (ix1 ch)))
        (l2n fun d => means (ix3 k' m d)) (fun d => diag (ix3 k' m d)) - c)
    (fun k' => mg (ix1 k')) (fun k' => mb (ix1 k')) k

/-- The result array. -/
def G (c : EReal) (x : SX.Idx → EReal) (means diag : SM.Idx → EReal) (fg fb : SC.Idx → EReal) (mg mb : SK.Idx → EReal) :
    SO.Idx → EReal := fun i => Gat c x means diag fg fb mg mb (i 0) (i 1) (i 2) (i 3)

theorem G_apply (c : EReal) (x : SX.Idx → EReal) (means diag : SM.Idx → EReal) (fg fb : SC.Idx → EReal) (mg mb : SK.Idx → EReal)
    (b : Fin 4) (k : Fin 19) (h w : Fin 128) :
    G c x means diag fg fb mg mb (ix4 b k h w) = Gat c x means diag fg fb mg mb b k h w := rfl

/-- Row hh·128 + w of a block's 2048 pixel rows. -/
def rowIn (hh : Fin 16) (w : Fin 128) : Fin 2048 := ⟨hh.val * 128 + w.val, by have := hh.isLt; have := w.isLt; omega⟩

/-- Row (b·128 + h)·128 + w of the 65536 pixel rows. -/
def rowOf (b : Fin 4) (h w : Fin 128) : Fin 65536 :=
  ⟨(b.val * 128 + h.val) * 128 + w.val, by have := b.isLt; have := h.isLt; have := w.isLt; omega⟩

/-- One block's result at (k, hh, w) from the block of x and the staged tables: T1[d, p] = 1/σ², T2[d, p] = μ/σ²,
    Q3[0, p] = Σ μ²/σ², LD[0, p] = Σ log σ, p = m·19 + k; the affine maps as staged columns and rows. -/
def Bat (c : EReal) (X : SBX.Idx → EReal) (fgB fbB : SA.Idx → EReal) (T1 T2 : ST.Idx → EReal) (Q3 LD : SQ.Idx → EReal)
    (mgB mbB : SG.Idx → EReal) (k : Fin 19) (hh : Fin 16) (w : Fin 128) : EReal :=
  headLN (fun k' => max5 fun m =>
      lpK (feat (fun ch => X (ix4 (0 : Fin 1) ch hh w)) (fun ch => fgB (ix3 ch (0 : Fin 1) (0 : Fin 1))) (fun ch => fbB (ix3 ch (0 : Fin 1) (0 : Fin 1))))
        (fun d => T1 (ix2 d (pIdx m k'))) (fun d => T2 (ix2 d (pIdx m k')))
        (Q3 (ix2 (0 : Fin 1) (pIdx m k'))) (LD (ix2 (0 : Fin 1) (pIdx m k'))) - c)
    (fun k' => mgB (ix2 (0 : Fin 1) k')) (fun k' => mbB (ix2 (0 : Fin 1) k')) k

end Gmm

end
-- ==== Proof.Algebra.lean ====
/-
  Why the subtracted constant does not matter.

  Subtracting a real number r from every entry of a vector of extended reals commutes with a maximum (x ↦ x − r is
  monotone), and is undone by centring over the nineteen classes: if every entry is real this is arithmetic in ℝ
  (the mean drops by r, since the divisor is the real number 19); if some entry is −∞ the sum is −∞ with or without
  r, and if none is −∞ but some is +∞ the sum is +∞ either way, and then every centred entry is the same infinity on
  both sides. So the head's result is the same for any two real constants, and both programs' constants are real.
-/
import proofs.«168334_j24696061952473_1_alg».proof.Proof.Spec

noncomputable section

namespace Gmm

open Idealize.ShloMosaic Idealize.ShloMosaic.ValueIdx

/-! ## The constants are real numbers -/

/-- The class count's word is the real number 19. -/
theorem n19_eq : n19 = ((19 : ℝ) : EReal) := by
  simp [n19, Ideal.ofBits, Ideal.ieee, -EReal.coe_mul]; norm_num

/-- The kernel's constant is a real number. -/
theorem cKernel_real : ∃ r : ℝ, cKernel = (r : EReal) := by
  simp [cKernel, Ideal.ofBits, Ideal.ieee, -EReal.coe_mul]

/-- The word of 256 is a real number. -/
theorem word256_real : ∃ r : ℝ, Ideal.ofBits .f32 0x43800000#32 = (r : EReal) := by
  simp [Ideal.ofBits, Ideal.ieee, -EReal.coe_mul]

/-- The word nearest 2π is a positive real number. -/
theorem word2pi_pos_real : ∃ r : ℝ, 0 < r ∧ Ideal.ofBits .f32 0x40C90FDB#32 = (r : EReal) := by
  simp [Ideal.ofBits, Ideal.ieee, -EReal.coe_mul]

/-- The reference's constant, 256 times the logarithm of a positive real, is a real number. -/
theorem cRef_real : ∃ r : ℝ, cRef = (r : EReal) := by
  obtain ⟨a, ha⟩ := word256_real
  obtain ⟨p, hp, hp'⟩ := word2pi_pos_real
  -- the logarithm of a positive real is the real logarithm, and a product of two reals is a real
  refine ⟨a * Real.log p, ?_⟩
  rw [cRef, ha, hp', Ideal.log_coe, if_neg (not_le.2 hp), EReal.coe_mul]

/-! ## Maxima -/

/-- x ↦ x − r is monotone, so it commutes with a maximum of two. -/
theorem max_sub_real (a b : EReal) (r : ℝ) : max a b - (r : EReal) = max (a - (r : EReal)) (b - (r : EReal)) :=
  (show Monotone fun x : EReal => x - (r : EReal) from fun _ _ h => EReal.sub_le_sub h le_rfl).map_max

/-- Subtracting a real commutes with the maximum of five. -/
theorem max5_sub_real (l : Fin 5 → EReal) (r : ℝ) : (max5 fun m => l m - (r : EReal)) = max5 l - (r : EReal) := by
  simp only [max5, max_sub_real]

/-- The maximum of five is the fold of max from −∞ over the five components, in any order. -/
theorem fold_max_bot (l : Fin 5 → EReal) : (Finset.univ : Finset (Fin 5)).fold max (⊥ : EReal) l = max5 l := by
  -- both are the least upper bound of the five entries
  apply le_antisymm
  · have hle : ∀ m : Fin 5, l m ≤ max5 l := by
      intro m
      fin_cases m <;> simp [max5]
    exact (Finset.fold_max_le _).2 ⟨bot_le, fun m _ => hle m⟩
  · have h : ∀ m : Fin 5, l m ≤ (Finset.univ : Finset (Fin 5)).fold max (⊥ : EReal) l :=
      fun m => (Finset.le_fold_max _).2 (Or.inr ⟨m, Finset.mem_univ m, le_rfl⟩)
    exact max_le (max_le (max_le (max_le (h 0) (h 1)) (h 2)) (h 3)) (h 4)

/-! ## Centring

  The extended reals are a commutative monoid under addition, so a finite sum splits over a sum of two families with
  no side condition; multiplying by a nonnegative real distributes over a difference; and the negative of a
  difference whose subtrahend is real is the difference reversed. These three laws carry the real-number computation
  "the mean drops by r" through every case of the file's header at once: the infinite cases are the instances of the
  same identities in which the sum is −∞ or +∞. -/

/-- The sum of the shifted entries is the sum less 19 r. -/
theorem sum_sub_real (v : Fin 19 → EReal) (r : ℝ) :
    (∑ j, (v j - (r : EReal))) = (∑ j, v j) - ((19 * r : ℝ) : EReal) := by
  have hc : (∑ _j : Fin 19, ((-r : ℝ) : EReal)) = ((-(19 * r) : ℝ) : EReal) := by
    rw [Finset.sum_const, Finset.card_univ, Fintype.card_fin, ← EReal.coe_nsmul]
    congr 1
    simp [nsmul_eq_mul]
  simp only [sub_eq_add_neg, ← EReal.coe_neg]
  rw [Finset.sum_add_distrib, hc]

/-- (x − r) − (μ − r) = x − μ for a real r, whatever x and μ are. -/
theorem sub_real_sub_sub_real (x μ : EReal) (r : ℝ) : (x - (r : EReal)) - (μ - (r : EReal)) = x - μ := by
  have hn : -(μ - (r : EReal)) = -μ + (r : EReal) :=
    EReal.neg_sub (Or.inr (EReal.coe_ne_bot r)) (Or.inr (EReal.coe_ne_top r))
  rw [sub_eq_add_neg (x - (r : EReal)), hn, sub_eq_add_neg x (r : EReal), add_add_add_comm, ← EReal.coe_neg,
    ← EReal.coe_add, neg_add_cancel, EReal.coe_zero, add_zero, ← sub_eq_add_neg]

/-- Centring over the classes forgets a real shift. -/
theorem centre_sub_real (v : Fin 19 → EReal) (r : ℝ) : centre (fun k => v k - (r : EReal)) = centre v := by
  funext k
  have h19 : (19 : ℝ) ≠ 0 := by norm_num
  have ha : (0 : EReal) ≤ ((1 / 19 : ℝ) : EReal) := by exact_mod_cast (by norm_num : (0 : ℝ) ≤ 1 / 19)
  -- the shifted mean is the mean less r
  have hmean : Ideal.div (∑ j, (v j - (r : EReal))) n19 = Ideal.div (∑ j, v j) n19 - (r : EReal) := by
    rw [n19_eq, Ideal.div_coe h19, Ideal.div_coe h19, sum_sub_real,
      EReal.sub_mul_of_nonneg_of_ne_top ha (EReal.coe_ne_top _), ← EReal.coe_mul]
    congr 2
    field_simp
  show (v k - (r : EReal)) - Ideal.div (∑ j, (v j - (r : EReal))) n19 = v k - Ideal.div (∑ j, v j) n19
  rw [hmean, sub_real_sub_sub_real]

/-- So does the layer norm over the classes. -/
theorem headLN_sub_real (v g b : Fin 19 → EReal) (r : ℝ) : headLN (fun k => v k - (r : EReal)) g b = headLN v g b := by
  funext k
  simp only [headLN_eq_centre, centre_sub_real]

/-! ## The result -/

/-- The result is the same for any two real constants. -/
theorem Gat_real_const (r₁ r₂ : ℝ) (x : SX.Idx → EReal) (means diag : SM.Idx → EReal) (fg fb : SC.Idx → EReal) (mg mb : SK.Idx → EReal)
    (b : Fin 4) (k : Fin 19) (h w : Fin 128) :
    Gat (r₁ : EReal) x means diag fg fb mg mb b k h w = Gat (r₂ : EReal) x means diag fg fb mg mb b k h w := by
  -- on both sides the constant leaves the maximum and is then forgotten by the layer norm
  unfold Gat
  simp only [max5_sub_real, headLN_sub_real]

/-- The two programs' results agree. -/
theorem G_kernel_eq_ref (x : SX.Idx → EReal) (means diag : SM.Idx → EReal) (fg fb : SC.Idx → EReal) (mg mb : SK.Idx → EReal) :
    G cKernel x means diag fg fb mg mb = G cRef x means diag fg fb mg mb := by
  obtain ⟨r₁, h₁⟩ := cKernel_real
  obtain ⟨r₂, h₂⟩ := cRef_real
  funext i
  unfold G
  rw [h₁, h₂]
  exact Gat_real_const r₁ r₂ x means diag fg fb mg mb (i 0) (i 1) (i 2) (i 3)

end Gmm

end
-- ==== Proof.RefFeat.lean ====
/-
  The reference's features and tables, read at an index.

  The reference lays the pixels out as 65536 rows of 512 channels, row (b·128 + h)·128 + w holding pixel (b, h, w), and
  normalises each row; it lays the mixture rows out as 95 rows of 512, row k·5 + m holding (k, m).
-/
import proofs.«168334_j24696061952473_1_alg».proof.Proof.Spec
import proofs.«168334_j24696061952473_1_alg».proof.Proof.Gen.ReferenceIdeal.Read
import Idealize.ShloMosaic.Lib.IdealHost

noncomputable section

namespace Gmm.Ref

open Cert.ReferenceIdeal Cert.ReferenceIdeal.Read Idealize.ShloMosaic Idealize.ShloMosaic.ValueIdx Gmm

/-! ## The index maps at coordinates

Each layout operation of the reference reads its operand at an index computed from the result's index. At an index given
by coordinates these are again indices given by coordinates. -/

/-- A column [65536, 1] spread over the 512 channels is read at the row. -/
theorem idx6_at (n : Fin 65536) (ch : Fin 512) : idx_main_v6 (ix2 n ch) = ix2 n (0 : Fin 1) := funext fun a => Fin.ext (by match a with | ⟨0, _⟩ => rfl | ⟨1, _⟩ => rfl)
theorem idx13_at (n : Fin 65536) (ch : Fin 512) : idx_main_v13 (ix2 n ch) = ix2 n (0 : Fin 1) := funext fun a => Fin.ext (by match a with | ⟨0, _⟩ => rfl | ⟨1, _⟩ => rfl)
theorem idx18_at (n : Fin 65536) (ch : Fin 512) : idx_main_v18 (ix2 n ch) = ix2 n (0 : Fin 1) := funext fun a => Fin.ext (by match a with | ⟨0, _⟩ => rfl | ⟨1, _⟩ => rfl)
theorem idx29_at (n : Fin 65536) (ch : Fin 512) : idx_main_v29 (ix2 n ch) = ix2 n (0 : Fin 1) := funext fun a => Fin.ext (by match a with | ⟨0, _⟩ => rfl | ⟨1, _⟩ => rfl)
/-- A row-indexed vector [65536] made a column [65536, 1] is read at the row. -/
theorem idx3_at (n : Fin 65536) : idx_main_v3 (ix2 n (0 : Fin 1)) = ix1 n := funext fun a => Fin.ext (by match a with | ⟨0, _⟩ => rfl)
theorem idx10_at (n : Fin 65536) : idx_main_v10 (ix2 n (0 : Fin 1)) = ix1 n := funext fun a => Fin.ext (by match a with | ⟨0, _⟩ => rfl)
theorem idxc0v2_at (n : Fin 65536) : idx_main_call0_v2 (ix2 n (0 : Fin 1)) = ix1 n := funext fun a => Fin.ext (by match a with | ⟨0, _⟩ => rfl)
/-- The sum over the channels of row n runs over the entries (n, k). -/
theorem idx2_at (n : Fin 65536) (k : Fin 512) : idx_main_v2 (ix1 n) k = ix2 n k := funext fun a => Fin.ext (by match a with | ⟨0, _⟩ => rfl | ⟨1, _⟩ => rfl)
theorem idx9_at (n : Fin 65536) (k : Fin 512) : idx_main_v9 (ix1 n) k = ix2 n k := funext fun a => Fin.ext (by match a with | ⟨0, _⟩ => rfl | ⟨1, _⟩ => rfl)
theorem idxc0v1_at (n : Fin 65536) (k : Fin 512) : idx_main_call0_v1 (ix1 n) k = ix2 n k := funext fun a => Fin.ext (by match a with | ⟨0, _⟩ => rfl | ⟨1, _⟩ => rfl)
/-- A channel-indexed vector [512] made a row [1, 512] and spread over the 65536 rows is read at the channel. -/
theorem idx21_at (n : Fin 65536) (ch : Fin 512) : idx_main_v21 (ix2 n ch) = ix2 (0 : Fin 1) ch := funext fun a => Fin.ext (by match a with | ⟨0, _⟩ => rfl | ⟨1, _⟩ => rfl)
theorem idx24_at (n : Fin 65536) (ch : Fin 512) : idx_main_v24 (ix2 n ch) = ix2 (0 : Fin 1) ch := funext fun a => Fin.ext (by match a with | ⟨0, _⟩ => rfl | ⟨1, _⟩ => rfl)
theorem idx20_at (ch : Fin 512) : idx_main_v20 (ix2 (0 : Fin 1) ch) = ix1 ch := funext fun a => Fin.ext (by match a with | ⟨0, _⟩ => rfl)
theorem idx23_at (ch : Fin 512) : idx_main_v23 (ix2 (0 : Fin 1) ch) = ix1 ch := funext fun a => Fin.ext (by match a with | ⟨0, _⟩ => rfl)
/-- The transposition (b, h, w, c) ↦ (b, c, h, w). -/
theorem idx0_at (b : Fin 4) (h w : Fin 128) (ch : Fin 512) : idx_main_v0 (ix4 b h w ch) = ix4 b ch h w := funext fun a => Fin.ext (by match a with | ⟨0, _⟩ => rfl | ⟨1, _⟩ => rfl | ⟨2, _⟩ => rfl | ⟨3, _⟩ => rfl)
/-- Entry (row (b, h, w), c) of the 65536 × 512 matrix is entry (b, h, w, c) of the four-axis array: the flat position
    ((b·128 + h)·128 + w)·512 + c splits back into its four digits. -/
theorem idx1_at (b : Fin 4) (h w : Fin 128) (ch : Fin 512) : idx_main_v1 (ix2 (rowOf b h w) ch) = ix4 b h w ch := by
  have hb := b.isLt; have hh := h.isLt; have hw := w.isLt; have hc := ch.isLt
  refine funext fun a => Fin.ext ?_
  match a with
  | ⟨0, _⟩ => show (((b.val * 128 + h.val) * 128 + w.val) * 512 + ch.val) / 8388608 = b.val; omega
  | ⟨1, _⟩ => show (((b.val * 128 + h.val) * 128 + w.val) * 512 + ch.val) / 65536 % 128 = h.val; omega
  | ⟨2, _⟩ => show (((b.val * 128 + h.val) * 128 + w.val) * 512 + ch.val) / 512 % 128 = w.val; omega
  | ⟨3, _⟩ => show (((b.val * 128 + h.val) * 128 + w.val) * 512 + ch.val) % 512 = ch.val; omega

/-- Entry (row (k, m), d) of a 95 × 512 table is entry (k, m, d) of the three-axis array: the flat position
    (k·5 + m)·512 + d splits back into its three digits. -/
theorem idx36_at (k : Fin 19) (m : Fin 5) (d : Fin 512) : idx_main_v36 (ix2 (qIdx k m) d) = ix3 k m d := by
  have hk := k.isLt; have hm := m.isLt; have hd := d.isLt
  refine funext fun a => Fin.ext ?_
  match a with
  | ⟨0, _⟩ => show ((k.val * 5 + m.val) * 512 + d.val) / 2560 = k.val; omega
  | ⟨1, _⟩ => show ((k.val * 5 + m.val) * 512 + d.val) / 512 % 5 = m.val; omega
  | ⟨2, _⟩ => show ((k.val * 5 + m.val) * 512 + d.val) % 512 = d.val; omega
theorem idx37_at (k : Fin 19) (m : Fin 5) (d : Fin 512) : idx_main_v37 (ix2 (qIdx k m) d) = ix3 k m d := by
  have hk := k.isLt; have hm := m.isLt; have hd := d.isLt
  refine funext fun a => Fin.ext ?_
  match a with
  | ⟨0, _⟩ => show ((k.val * 5 + m.val) * 512 + d.val) / 2560 = k.val; omega
  | ⟨1, _⟩ => show ((k.val * 5 + m.val) * 512 + d.val) / 512 % 5 = m.val; omega
  | ⟨2, _⟩ => show ((k.val * 5 + m.val) * 512 + d.val) % 512 = d.val; omega
/-- A column [19, 5, 1] spread over the 512 coordinates is read at (k, m). -/
theorem idx34_at (k : Fin 19) (m : Fin 5) (d : Fin 512) : idx_main_v34 (ix3 k m d) = ix3 k m (0 : Fin 1) := funext fun a => Fin.ext (by match a with | ⟨0, _⟩ => rfl | ⟨1, _⟩ => rfl | ⟨2, _⟩ => rfl)
theorem idxc1v2_at (k : Fin 19) (m : Fin 5) : idx_main_call1_v2 (ix3 k m (0 : Fin 1)) = ix2 k m := funext fun a => Fin.ext (by match a with | ⟨0, _⟩ => rfl | ⟨1, _⟩ => rfl)
theorem idxc1v1_at (k : Fin 19) (m : Fin 5) (j : Fin 512) : idx_main_call1_v1 (ix2 k m) j = ix3 k m j := funext fun a => Fin.ext (by match a with | ⟨0, _⟩ => rfl | ⟨1, _⟩ => rfl | ⟨2, _⟩ => rfl)

/-! ## The feature matrix, row by row

Row n of the 65536 × 512 matrix, as a function of the channel, is `fun k => val_main_v1 x0 (ix2 n k)`. Every later
stage at (n, ·) is a function of that row alone. -/

/-- The mean of row n: the sum over the channels (the sum starts from the zero word) over 512. -/
theorem mean_at (x0 : (⟨S4x512x128x128, .f32⟩ : BufTy).Contents (Elt Ideal)) (n : Fin 65536) :
    val_main_v5 (F := Ideal) x0 (ix2 n (0 : Fin 1)) = Ideal.div (∑ k : Fin 512, val_main_v1 (F := Ideal) x0 (ix2 n k)) n512 := by
  rw [val_main_v5_apply, val_main_v3_apply, val_main_v4_apply, val_main_cst_0_apply, idx3_at n, val_main_v2_apply, val_main_cst_apply]
  simp only [idx2_at, Ideal.hostDivf_def, Ideal.ofBits_def, Ideal.ofBits_zero_f32, zero_add, n512]

/-- The centred entry (n, ch), as the variance reads it … -/
theorem cen7_at (x0 : (⟨S4x512x128x128, .f32⟩ : BufTy).Contents (Elt Ideal)) (n : Fin 65536) (ch : Fin 512) :
    val_main_v7 (F := Ideal) x0 (ix2 n ch)
      = val_main_v1 (F := Ideal) x0 (ix2 n ch) - Ideal.div (∑ k : Fin 512, val_main_v1 (F := Ideal) x0 (ix2 n k)) n512 := by
  rw [val_main_v7_apply, val_main_v6_apply, idx6_at n ch, mean_at]
  simp only [Ideal.subf_def]

/-- … and as the normalised value reads it: the same difference. -/
theorem cen14_at (x0 : (⟨S4x512x128x128, .f32⟩ : BufTy).Contents (Elt Ideal)) (n : Fin 65536) (ch : Fin 512) :
    val_main_v14 (F := Ideal) x0 (ix2 n ch)
      = val_main_v1 (F := Ideal) x0 (ix2 n ch) - Ideal.div (∑ k : Fin 512, val_main_v1 (F := Ideal) x0 (ix2 n k)) n512 := by
  rw [val_main_v14_apply, val_main_v13_apply, idx13_at n ch, mean_at]
  simp only [Ideal.subf_def]

/-- The variance of row n: the sum of the squared centred entries over 512. -/
theorem var_at (x0 : (⟨S4x512x128x128, .f32⟩ : BufTy).Contents (Elt Ideal)) (n : Fin 65536) :
    val_main_v12 (F := Ideal) x0 (ix2 n (0 : Fin 1))
      = Ideal.div (∑ k : Fin 512, val_main_v7 (F := Ideal) x0 (ix2 n k) * val_main_v7 (F := Ideal) x0 (ix2 n k)) n512 := by
  rw [val_main_v12_apply, val_main_v10_apply, val_main_v11_apply, val_main_cst_2_apply, idx10_at n, val_main_v9_apply, val_main_cst_1_apply]
  simp only [idx9_at, val_main_v8_apply, Ideal.mulf_def, Ideal.hostDivf_def, Ideal.ofBits_def, Ideal.ofBits_zero_f32, zero_add, n512]

/-- The layer-normalised entry (n, ch): the specification's `lnorm` of row n with the two affine vectors. -/
theorem ln_at (x0 : (⟨S4x512x128x128, .f32⟩ : BufTy).Contents (Elt Ideal)) (x3 x4 : (⟨S512, .f32⟩ : BufTy).Contents (Elt Ideal)) (n : Fin 65536) (ch : Fin 512) :
    val_main_v25 (F := Ideal) x0 x3 x4 (ix2 n ch)
      = lnorm (fun k => val_main_v1 (F := Ideal) x0 (ix2 n k)) (fun c => x3 (ix1 c)) (fun c => x4 (ix1 c)) ch := by
  rw [val_main_v25_apply, val_main_v22_apply, val_main_v19_apply, cen14_at, val_main_v18_apply, idx18_at n ch,
    val_main_v17_apply, val_main_v16_apply, var_at, val_main_v15_apply, val_main_cst_3_apply,
    val_main_v21_apply, idx21_at n ch, val_main_v20_apply, idx20_at ch,
    val_main_v24_apply, idx24_at n ch, val_main_v23_apply, idx23_at ch]
  simp only [cen7_at, Ideal.mulf_def, Ideal.addf_def, Ideal.hostUnary_rsqrt_def, Ideal.ofBits_def, lnorm, epsLN]

/-- The floored Euclidean length of the layer-normalised row n. -/
theorem nrm_at (x0 : (⟨S4x512x128x128, .f32⟩ : BufTy).Contents (Elt Ideal)) (x3 x4 : (⟨S512, .f32⟩ : BufTy).Contents (Elt Ideal)) (n : Fin 65536) :
    val_main_v28 (F := Ideal) x0 x3 x4 (ix2 n (0 : Fin 1))
      = max (Ideal.sqrt (∑ k : Fin 512, val_main_v25 (F := Ideal) x0 x3 x4 (ix2 n k) * val_main_v25 (F := Ideal) x0 x3 x4 (ix2 n k))) epsL2 := by
  rw [val_main_v28_apply, val_main_v26_apply, val_main_call0_v2_apply, idxc0v2_at n, val_main_call0_v1_apply, val_main_call0_cst_apply,
    val_main_v27_apply, val_main_cst_4_apply]
  simp only [idxc0v1_at, val_main_call0_v0_apply, Ideal.mulf_def, Ideal.maximumf_def, Ideal.hostUnary_sqrt_def, Ideal.ofBits_def,
    Ideal.ofBits_zero_f32, zero_add, epsL2]

/-- Row n of the feature matrix is the specification's feature vector of row n. -/
theorem feat_at (x0 : (⟨S4x512x128x128, .f32⟩ : BufTy).Contents (Elt Ideal)) (x3 x4 : (⟨S512, .f32⟩ : BufTy).Contents (Elt Ideal)) (n : Fin 65536) (ch : Fin 512) :
    val_main_v30 (F := Ideal) x0 x3 x4 (ix2 n ch)
      = feat (fun k => val_main_v1 (F := Ideal) x0 (ix2 n k)) (fun c => x3 (ix1 c)) (fun c => x4 (ix1 c)) ch := by
  rw [val_main_v30_apply, val_main_v29_apply, idx29_at n ch, nrm_at]
  simp only [ln_at, Ideal.hostDivf_def, feat, l2n]

/-- Row (b, h, w) of the 65536 × 512 matrix holds the pixel's 512 channel values. -/
theorem row_at (x0 : (⟨S4x512x128x128, .f32⟩ : BufTy).Contents (Elt Ideal)) (b : Fin 4) (h w : Fin 128) (ch : Fin 512) :
    val_main_v1 (F := Ideal) x0 (ix2 (rowOf b h w) ch) = x0 (ix4 b ch h w) := by
  rw [val_main_v1_apply, idx1_at b h w ch, val_main_v0_apply, idx0_at b h w ch]

/-- Row (b, h, w) of the reference's feature matrix is the pixel's feature vector. -/
theorem ref_feat (x0 : (⟨S4x512x128x128, .f32⟩ : BufTy).Contents (Elt Ideal)) (x3 x4 : (⟨S512, .f32⟩ : BufTy).Contents (Elt Ideal)) (b : Fin 4) (h w : Fin 128) (ch : Fin 512) :
    val_main_v30 (F := Ideal) x0 x3 x4 (ix2 (rowOf b h w) ch) = feat (fun c' => x0 (ix4 b c' h w)) (fun c' => x3 (ix1 c')) (fun c' => x4 (ix1 c')) ch := by
  rw [feat_at]
  simp only [row_at]

/-! ## The mixture tables -/

/-- Row (k, m) of the reference's mean matrix is the mean row scaled to unit length. -/
theorem ref_mu (x1 : (⟨S19x5x512, .f32⟩ : BufTy).Contents (Elt Ideal)) (k : Fin 19) (m : Fin 5) (d : Fin 512) :
    val_main_v36 (F := Ideal) x1 (ix2 (qIdx k m) d) = l2n (fun d' => x1 (ix3 k m d')) d := by
  rw [val_main_v36_apply, idx36_at k m d, val_main_v35_apply, val_main_v34_apply, idx34_at k m d, val_main_v33_apply,
    val_main_v31_apply, val_main_call1_v2_apply, idxc1v2_at k m, val_main_call1_v1_apply, val_main_call1_cst_apply,
    val_main_v32_apply, val_main_cst_5_apply]
  simp only [idxc1v1_at, val_main_call1_v0_apply, Ideal.mulf_def, Ideal.maximumf_def, Ideal.hostUnary_sqrt_def, Ideal.hostDivf_def,
    Ideal.ofBits_def, Ideal.ofBits_zero_f32, zero_add, l2n, epsL2]

/-- Row (k, m) of the reference's deviation matrix is the deviation row. -/
theorem ref_sg (x2 : (⟨S19x5x512, .f32⟩ : BufTy).Contents (Elt Ideal)) (k : Fin 19) (m : Fin 5) (d : Fin 512) :
    val_main_v37 (F := Ideal) x2 (ix2 (qIdx k m) d) = x2 (ix3 k m d) := by
  rw [val_main_v37_apply, idx37_at k m d]

/-- Row (k, m) of the reference's inverse-variance matrix. -/
theorem ref_iv (x2 : (⟨S19x5x512, .f32⟩ : BufTy).Contents (Elt Ideal)) (k : Fin 19) (m : Fin 5) (d : Fin 512) :
    val_main_v40 (F := Ideal) x2 (ix2 (qIdx k m) d) = ivOf (fun d' => x2 (ix3 k m d')) d := by
  rw [val_main_v40_apply, val_main_v39_apply, val_main_cst_6_apply, val_main_v38_apply, ref_sg]
  simp only [Ideal.hostDivf_def, Ideal.mulf_def, Ideal.ofBits_def, ivOf, one]

end Gmm.Ref

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.RefHead.lean ====
/-
  The reference's head, read at an index, and the reference's result as the specification.

  Entry (row, k·5 + m) of the log-density matrix is component (k, m)'s core at that pixel less the reference's constant;
  reshaped to (row, k, m) and maximised over m it is the class score; the scores are layer-normalised over k and the
  rows laid back out as (b, k, h, w).
-/
import proofs.«168334_j24696061952473_1_alg».proof.Proof.RefFeat
import proofs.«168334_j24696061952473_1_alg».proof.Proof.Algebra
import proofs.«168334_j24696061952473_1_alg».proof.Proof.LibMatmul

noncomputable section

namespace Gmm.Ref

open Cert.ReferenceIdeal Cert.ReferenceIdeal.Read Idealize.ShloMosaic Idealize.ShloMosaic.ValueIdx Gmm

/-! ## The index maps of the two matrix products, the transposes and the broadcasts, at coordinates -/

/-- The first product's left operand at output (r, q) and contraction d is read at (r, d). -/
theorem lidx43_ix (r : Fin 65536) (q : Fin 95) (d : Fin 512) : lidx_main_v43 (ix2 r q) d = ix2 r d :=
  funext fun a => Fin.ext (by match a with | ⟨0, _⟩ => rfl | ⟨1, _⟩ => rfl)

/-- Its right operand is read at (d, q). -/
theorem ridx43_ix (r : Fin 65536) (q : Fin 95) (d : Fin 512) : ridx_main_v43 (ix2 r q) d = ix2 d q :=
  funext fun a => Fin.ext (by match a with | ⟨0, _⟩ => rfl | ⟨1, _⟩ => rfl)

/-- The transposed inverse variances at (d, q) are the inverse variances at (q, d). -/
theorem idx42_ix (d : Fin 512) (q : Fin 95) : idx_main_v42 (ix2 d q) = ix2 q d :=
  funext fun a => Fin.ext (by match a with | ⟨0, _⟩ => rfl | ⟨1, _⟩ => rfl)

/-- The second product's left operand at output (r, q) and contraction d is read at (r, d). -/
theorem lidx46_ix (r : Fin 65536) (q : Fin 95) (d : Fin 512) : lidx_main_v46 (ix2 r q) d = ix2 r d :=
  funext fun a => Fin.ext (by match a with | ⟨0, _⟩ => rfl | ⟨1, _⟩ => rfl)

/-- Its right operand is read at (d, q). -/
theorem ridx46_ix (r : Fin 65536) (q : Fin 95) (d : Fin 512) : ridx_main_v46 (ix2 r q) d = ix2 d q :=
  funext fun a => Fin.ext (by match a with | ⟨0, _⟩ => rfl | ⟨1, _⟩ => rfl)

/-- The transposed scaled means at (d, q) are the scaled means at (q, d). -/
theorem idx45_ix (d : Fin 512) (q : Fin 95) : idx_main_v45 (ix2 d q) = ix2 q d :=
  funext fun a => Fin.ext (by match a with | ⟨0, _⟩ => rfl | ⟨1, _⟩ => rfl)

/-- Row q of a 95 × 512 table, entry d. -/
theorem idx49_ix (q : Fin 95) (d : Fin 512) : idx_main_v49 (ix1 q) d = ix2 q d :=
  funext fun a => Fin.ext (by match a with | ⟨0, _⟩ => rfl | ⟨1, _⟩ => rfl)

theorem idx57_ix (q : Fin 95) (d : Fin 512) : idx_main_v57 (ix1 q) d = ix2 q d :=
  funext fun a => Fin.ext (by match a with | ⟨0, _⟩ => rfl | ⟨1, _⟩ => rfl)

/-- A row vector of 95 broadcast down the 65536 rows: entry (r, q) reads entry q. -/
theorem idx54_53_ix (r : Fin 65536) (q : Fin 95) : idx_main_v53 (idx_main_v54 (ix2 r q)) = ix1 q :=
  funext fun a => Fin.ext (by match a with | ⟨0, _⟩ => rfl)

theorem idx63_62_ix (r : Fin 65536) (q : Fin 95) : idx_main_v62 (idx_main_v63 (ix2 r q)) = ix1 q :=
  funext fun a => Fin.ext (by match a with | ⟨0, _⟩ => rfl)

/-! ## The four sums of a component, at coordinates -/

/-- Σ_d f² · (1/σ²): the product of the squared features with the transposed inverse variances. -/
theorem v43_at (x0 : (⟨S4x512x128x128, .f32⟩ : BufTy).Contents (Elt Ideal)) (x2 : (⟨S19x5x512, .f32⟩ : BufTy).Contents (Elt Ideal)) (x3 x4 : (⟨S512, .f32⟩ : BufTy).Contents (Elt Ideal)) (r : Fin 65536) (q : Fin 95) :
    val_main_v43 (F := Ideal) x0 x2 x3 x4 (ix2 r q)
      = ∑ d : Fin 512, (val_main_v30 (F := Ideal) x0 x3 x4 (ix2 r d) * val_main_v30 (F := Ideal) x0 x3 x4 (ix2 r d)) * val_main_v40 (F := Ideal) x2 (ix2 q d) := by
  rw [val_main_v43_apply]
  refine Finset.sum_congr rfl fun d _ => ?_
  rw [lidx43_ix, ridx43_ix, val_main_v41_apply, val_main_v42_apply, idx42_ix]
  rfl

/-- Σ_d f · (μ/σ²): the product of the features with the transposed scaled means. -/
theorem v46_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) (q : Fin 95) :
    val_main_v46 (F := Ideal) x0 x1 x2 x3 x4 (ix2 r q)
      = ∑ d : Fin 512, val_main_v30 (F := Ideal) x0 x3 x4 (ix2 r d) * (val_main_v36 (F := Ideal) x1 (ix2 q d) * val_main_v40 (F := Ideal) x2 (ix2 q d)) := by
  rw [val_main_v46_apply]
  refine Finset.sum_congr rfl fun d _ => ?_
  rw [lidx46_ix, ridx46_ix, val_main_v45_apply, idx45_ix, val_main_v44_apply]
  rfl

/-- Σ_d μ² · (1/σ²): a row sum from the zero word. -/
theorem v49_at (x1 x2 : (⟨S19x5x512, .f32⟩ : BufTy).Contents (Elt Ideal)) (q : Fin 95) :
    val_main_v49 (F := Ideal) x1 x2 (ix1 q)
      = ∑ d : Fin 512, (val_main_v36 (F := Ideal) x1 (ix2 q d) * val_main_v36 (F := Ideal) x1 (ix2 q d)) * val_main_v40 (F := Ideal) x2 (ix2 q d) := by
  rw [val_main_v49_apply, val_main_cst_7_apply, Ideal.ofBits_def, Ideal.ofBits_zero_f32, zero_add]
  refine Finset.sum_congr rfl fun d _ => ?_
  rw [idx49_ix, val_main_v48_apply, val_main_v47_apply]
  rfl

/-- Σ_d log σ: a row sum from the zero word. -/
theorem v57_at (x2 : (⟨S19x5x512, .f32⟩ : BufTy).Contents (Elt Ideal)) (q : Fin 95) :
    val_main_v57 (F := Ideal) x2 (ix1 q) = ∑ d : Fin 512, Ideal.log (val_main_v37 (F := Ideal) x2 (ix2 q d)) := by
  rw [val_main_v57_apply, val_main_cst_9_apply, Ideal.ofBits_def, Ideal.ofBits_zero_f32, zero_add]
  refine Finset.sum_congr rfl fun d _ => ?_
  rw [idx57_ix, val_main_v56_apply]
  rfl

/-! ## The scalars -/

/-- The constant the reference subtracts, broadcast: 256 times the logarithm of the float nearest 2π. -/
theorem v66_at (i : S65536x95.Idx) : val_main_v66 (F := Ideal) i = cRef := by
  rw [val_main_v66_apply, val_main_v65_apply, val_main_v59_apply, val_main_cst_11_apply, val_main_v58_apply, val_main_cst_10_apply]
  rfl

theorem v60_at (i : S65536x95.Idx) : val_main_v60 (F := Ideal) i = negHalf := by
  rw [val_main_v60_apply, val_main_cst_12_apply]
  rfl

theorem v50_at (i : S65536x95.Idx) : val_main_v50 (F := Ideal) i = two := by
  rw [val_main_v50_apply, val_main_cst_8_apply]
  rfl

/-! ## The log-density matrix -/

/-- Entry (r, q) of the log-density matrix from row r of the features and row q of the three tables. -/
theorem v67_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) (q : Fin 95) :
    val_main_v67 (F := Ideal) x0 x1 x2 x3 x4 (ix2 r q)
      = lpK2 (fun d => val_main_v30 (F := Ideal) x0 x3 x4 (ix2 r d))
          (fun d => val_main_v30 (F := Ideal) x0 x3 x4 (ix2 r d) * val_main_v30 (F := Ideal) x0 x3 x4 (ix2 r d))
          (fun d => val_main_v40 (F := Ideal) x2 (ix2 q d))
          (fun d => val_main_v36 (F := Ideal) x1 (ix2 q d) * val_main_v40 (F := Ideal) x2 (ix2 q d))
          (∑ d : Fin 512, (val_main_v36 (F := Ideal) x1 (ix2 q d) * val_main_v36 (F := Ideal) x1 (ix2 q d)) * val_main_v40 (F := Ideal) x2 (ix2 q d))
          (∑ d : Fin 512, Ideal.log (val_main_v37 (F := Ideal) x2 (ix2 q d))) - cRef := by
  rw [val_main_v67_apply, val_main_v64_apply, val_main_v61_apply, val_main_v55_apply, val_main_v52_apply, val_main_v51_apply,
    v43_at, v46_at, v50_at, v60_at, v66_at, val_main_v54_apply, val_main_v53_apply, idx54_53_ix, v49_at,
    val_main_v63_apply, val_main_v62_apply, idx63_62_ix, v57_at]
  generalize val_main_v30 (F := Ideal) x0 x3 x4 = y30
  generalize val_main_v36 (F := Ideal) x1 = y36
  generalize val_main_v37 (F := Ideal) x2 = y37
  generalize val_main_v40 (F := Ideal) x2 = y40
  rfl

/-- The log-density entry of pixel (b, h, w) and component (k, m). -/
theorem ref_logp (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (b : Fin 4) (h w : Fin 128) (k : Fin 19) (m : Fin 5) :
    val_main_v67 (F := Ideal) x0 x1 x2 x3 x4 (ix2 (rowOf b h w) (qIdx k m)) = comp (feat (fun c' => x0 (ix4 b c' h w)) (fun c' => x3 (ix1 c')) (fun c' => x4 (ix1 c'))) (l2n fun d => x1 (ix3 k m d)) (fun d => x2 (ix3 k m d)) - cRef := by
  rw [v67_at]
  simp only [ref_feat, ref_mu, ref_sg, ref_iv]
  rfl

/-! ## The class scores -/

/-- The reshaped matrix at (r, k, m) is the matrix at (r, k·5 + m). -/
theorem idx68_ix (r : Fin 65536) (k : Fin 19) (m : Fin 5) : idx_main_v68 (ix3 r k m) = ix2 r (qIdx k m) := by
  funext a
  apply Fin.ext
  have hk := k.isLt
  have hm := m.isLt
  match a with
  | ⟨0, _⟩ => show ((r.val * 19 + k.val) * 5 + m.val) / 95 = r.val; omega
  | ⟨1, _⟩ => show ((r.val * 19 + k.val) * 5 + m.val) % 95 = k.val * 5 + m.val; omega

/-- Putting coordinate m back on the reduced axis of (r, k) gives (r, k, m). -/
theorem lift69_ix (hr : S65536x19x5.Reduces [2] S65536x19) (r : Fin 65536) (k : Fin 19) (m : Fin 5) :
    hr.lift (ix2 r k) m = ix3 r k m := by
  funext c
  apply Fin.ext
  fin_cases c <;> rfl

/-- A maximum from −∞ over the last axis of a 65536 × 19 × 5 array, at (r, k): the maximum of the five entries
    (r, k, ·). The maximum is commutative and associative, so the fold over the axis is taken in any order, and −∞ is
    its neutral element. -/
theorem reduce_max_last (y : FVec Ideal S65536x19x5 .f32) (hr' : S65536x19x5.ReducesTo [2] S65536x19)
    (hu : 0 < S_.numel) (r : Fin 65536) (k : Fin 19) :
    Host.reduce (FloatOps.maximumf (F := Ideal) (φ := .f32)) y (val_main_cst_13 (F := Ideal)) hr' hu (ix2 r k)
      = max5 fun m => y (ix3 r k m) := by
  have hr : S65536x19x5.Reduces [2] S65536x19 := by decide
  rw [Host.reduce_eq_fold_single (FloatOps.maximumf (F := Ideal) (φ := .f32)) y _ hr' hr hu, val_main_cst_13_apply]
  have hb : FloatOps.ofBits (F := Ideal) .f32 0xFF800000#32 = (⊥ : EReal) := by simp [Ideal.ofBits, Ideal.ieee]
  rw [hb, ← fold_max_bot]
  have hf : (y ∘ hr.lift (ix2 r k)) = fun m : Fin 5 => y (ix3 r k m) := funext fun m => congrArg y (lift69_ix hr r k m)
  exact congrArg (fun f => Finset.fold max (⊥ : EReal) f (Finset.univ : Finset (Fin 5))) hf

/-- The class score of pixel (b, h, w) and class k: the maximum over the five components. -/
theorem ref_max (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (b : Fin 4) (h w : Fin 128) (k : Fin 19) :
    val_main_v69 (F := Ideal) x0 x1 x2 x3 x4 (ix2 (rowOf b h w) k) = max5 fun m => comp (feat (fun c' => x0 (ix4 b c' h w)) (fun c' => x3 (ix1 c')) (fun c' => x4 (ix1 c'))) (l2n fun d => x1 (ix3 k m d)) (fun d => x2 (ix3 k m d)) - cRef := by
  unfold val_main_v69
  rw [reduce_max_last]
  simp only [val_main_v68_apply, idx68_ix, ref_logp]

/-! ## The layer norm over the classes -/

/-- Row r of a 65536 × 19 matrix, entry j. -/
theorem idx70_ix (r : Fin 65536) (j : Fin 19) : idx_main_v70 (ix1 r) j = ix2 r j :=
  funext fun a => Fin.ext (by match a with | ⟨0, _⟩ => rfl | ⟨1, _⟩ => rfl)

theorem idx77_ix (r : Fin 65536) (j : Fin 19) : idx_main_v77 (ix1 r) j = ix2 r j :=
  funext fun a => Fin.ext (by match a with | ⟨0, _⟩ => rfl | ⟨1, _⟩ => rfl)

/-- A vector of 65536 as a column: entry (r, 0) reads entry r. -/
theorem idx71_ix (r : Fin 65536) : idx_main_v71 (ix2 r (0 : Fin 1)) = ix1 r :=
  funext fun a => Fin.ext (by match a with | ⟨0, _⟩ => rfl)

theorem idx78_ix (r : Fin 65536) : idx_main_v78 (ix2 r (0 : Fin 1)) = ix1 r :=
  funext fun a => Fin.ext (by match a with | ⟨0, _⟩ => rfl)

/-- A column broadcast along the 19 classes: entry (r, k) reads entry (r, 0). -/
theorem idx74_ix (r : Fin 65536) (k : Fin 19) : idx_main_v74 (ix2 r k) = ix2 r (0 : Fin 1) :=
  funext fun a => Fin.ext (by match a with | ⟨0, _⟩ => rfl | ⟨1, _⟩ => rfl)

theorem idx81_ix (r : Fin 65536) (k : Fin 19) : idx_main_v81 (ix2 r k) = ix2 r (0 : Fin 1) :=
  funext fun a => Fin.ext (by match a with | ⟨0, _⟩ => rfl | ⟨1, _⟩ => rfl)

theorem idx86_ix (r : Fin 65536) (k : Fin 19) : idx_main_v86 (ix2 r k) = ix2 r (0 : Fin 1) :=
  funext fun a => Fin.ext (by match a with | ⟨0, _⟩ => rfl | ⟨1, _⟩ => rfl)

/-- A vector of 19 broadcast down the rows: entry (r, k) reads entry k. -/
theorem idx89_88_ix (r : Fin 65536) (k : Fin 19) : idx_main_v88 (idx_main_v89 (ix2 r k)) = ix1 k :=
  funext fun a => Fin.ext (by match a with | ⟨0, _⟩ => rfl)

theorem idx92_91_ix (r : Fin 65536) (k : Fin 19) : idx_main_v91 (idx_main_v92 (ix2 r k)) = ix1 k :=
  funext fun a => Fin.ext (by match a with | ⟨0, _⟩ => rfl)

/-- The sum of a row's class scores, from the zero word. -/
theorem v70_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) :
    val_main_v70 (F := Ideal) x0 x1 x2 x3 x4 (ix1 r) = ∑ j : Fin 19, val_main_v69 (F := Ideal) x0 x1 x2 x3 x4 (ix2 r j) := by
  rw [val_main_v70_apply, val_main_cst_14_apply, Ideal.ofBits_def, Ideal.ofBits_zero_f32, zero_add]
  refine Finset.sum_congr rfl fun j _ => ?_
  rw [idx70_ix]

/-- The mean of a row's class scores. -/
theorem v73_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) :
    val_main_v73 (F := Ideal) x0 x1 x2 x3 x4 (ix2 r (0 : Fin 1))
      = Ideal.div (∑ j : Fin 19, val_main_v69 (F := Ideal) x0 x1 x2 x3 x4 (ix2 r j)) n19 := by
  rw [val_main_v73_apply, val_main_v71_apply, idx71_ix, v70_at, val_main_v72_apply, val_main_cst_15_apply]
  generalize val_main_v69 (F := Ideal) x0 x1 x2 x3 x4 = y69
  rfl

/-- The sum of a row's squared centred class scores, from the zero word. -/
theorem v77_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) :
    val_main_v77 (F := Ideal) x0 x1 x2 x3 x4 (ix1 r)
      = ∑ j : Fin 19, (val_main_v69 (F := Ideal) x0 x1 x2 x3 x4 (ix2 r j) - Ideal.div (∑ j' : Fin 19, val_main_v69 (F := Ideal) x0 x1 x2 x3 x4 (ix2 r j')) n19)
          * (val_main_v69 (F := Ideal) x0 x1 x2 x3 x4 (ix2 r j) - Ideal.div (∑ j' : Fin 19, val_main_v69 (F := Ideal) x0 x1 x2 x3 x4 (ix2 r j')) n19) := by
  rw [val_main_v77_apply, val_main_cst_16_apply, Ideal.ofBits_def, Ideal.ofBits_zero_f32, zero_add]
  refine Finset.sum_congr rfl fun j _ => ?_
  rw [idx77_ix, val_main_v76_apply, val_main_v75_apply, val_main_v74_apply, idx74_ix, v73_at]
  generalize val_main_v69 (F := Ideal) x0 x1 x2 x3 x4 = y69
  rfl

/-- The inverse root of a row's variance plus the offset. -/
theorem v85_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (r : Fin 65536) :
    val_main_v85 (F := Ideal) x0 x1 x2 x3 x4 (ix2 r (0 : Fin 1))
      = Ideal.rsqrt (Ideal.div (∑ j : Fin 19, (val_main_v69 (F := Ideal) x0 x1 x2 x3 x4 (ix2 r j) - Ideal.div (∑ j' : Fin 19, val_main_v69 (F := Ideal) x0 x1 x2 x3 x4 (ix2 r j')) n19)
          * (val_main_v69 (F := Ideal) x0 x1 x2 x3 x4 (ix2 r j) - Ideal.div (∑ j' : Fin 19, val_main_v69 (F := Ideal) x0 x1 x2 x3 x4 (ix2 r j')) n19)) n19 + epsLN) := by
  rw [val_main_v85_apply, val_main_v84_apply, val_main_v80_apply, val_main_v78_apply, idx78_ix, v77_at, val_main_v79_apply,
    val_main_cst_17_apply, val_main_v83_apply, val_main_cst_18_apply]
  generalize val_main_v69 (F := Ideal) x0 x1 x2 x3 x4 = y69
  rfl

/-- Row r of the normalised scores is the layer norm of row r of the class scores. -/
theorem v93_at (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (x5 x6 : (⟨S19, .f32⟩ : BufTy).Contents (Elt Ideal)) (r : Fin 65536) (k : Fin 19) :
    val_main_v93 (F := Ideal) x0 x1 x2 x3 x4 x5 x6 (ix2 r k)
      = headLN (fun k' => val_main_v69 (F := Ideal) x0 x1 x2 x3 x4 (ix2 r k')) (fun k' => x5 (ix1 k')) (fun k' => x6 (ix1 k')) k := by
  rw [val_main_v93_apply, val_main_v90_apply, val_main_v87_apply, val_main_v82_apply, val_main_v81_apply, idx81_ix, v73_at,
    val_main_v86_apply, idx86_ix, v85_at, val_main_v89_apply, val_main_v88_apply, idx89_88_ix, val_main_v92_apply,
    val_main_v91_apply, idx92_91_ix]
  generalize val_main_v69 (F := Ideal) x0 x1 x2 x3 x4 = y69
  rfl

/-! ## The result's layout -/

/-- The result at (b, k, h, w) is the (b, h, w, k) array's entry there. -/
theorem idx95_ix (b : Fin 4) (k : Fin 19) (h w : Fin 128) : idx_main_v95 (ix4 b k h w) = ix4 b h w k :=
  funext fun a => Fin.ext (by match a with | ⟨0, _⟩ => rfl | ⟨1, _⟩ => rfl | ⟨2, _⟩ => rfl | ⟨3, _⟩ => rfl)

/-- The (b, h, w, k) array's entry is row (b·128 + h)·128 + w, column k, of the normalised scores. -/
theorem idx94_ix (b : Fin 4) (h w : Fin 128) (k : Fin 19) : idx_main_v94 (ix4 b h w k) = ix2 (rowOf b h w) k := by
  funext a
  apply Fin.ext
  have hk := k.isLt
  match a with
  | ⟨0, _⟩ => show (((b.val * 128 + h.val) * 128 + w.val) * 19 + k.val) / 19 = (b.val * 128 + h.val) * 128 + w.val; omega
  | ⟨1, _⟩ => show (((b.val * 128 + h.val) * 128 + w.val) * 19 + k.val) % 19 = k.val; omega

/-- The reference's result is the specification at the reference's constant. -/
theorem ref_is_G (x0 : (⟨S4x512x128x128, .f32⟩ : BufTy).Contents (Elt Ideal)) (x1 x2 : (⟨S19x5x512, .f32⟩ : BufTy).Contents (Elt Ideal)) (x3 x4 : (⟨S512, .f32⟩ : BufTy).Contents (Elt Ideal)) (x5 x6 : (⟨S19, .f32⟩ : BufTy).Contents (Elt Ideal)) :
    val_main_v95 (F := Ideal) x0 x1 x2 x3 x4 x5 x6 = G cRef x0 x1 x2 x3 x4 x5 x6 := by
  funext i
  obtain ⟨b, k, h, w, rfl⟩ : ∃ (b : Fin 4) (k : Fin 19) (h w : Fin 128), i = ix4 b k h w := ⟨i 0, i 1, i 2, i 3, eq_ix4 i⟩
  rw [G_apply, val_main_v95_apply, idx95_ix, val_main_v94_apply, idx94_ix, v93_at]
  unfold Gat
  simp only [ref_max]

end Gmm.Ref

end
-- ==== Proof.KFeat.lean ====
/-
  The kernel body's feature stage, read at an index.

  The body holds one block of x as (512, 16, 128): it normalises over the leading (channel) axis, moves the channels
  last and flattens the 16 × 128 pixels to 2048 rows, row hh·128 + w holding pixel (hh, w) of the block.
-/
import proofs.«168334_j24696061952473_1_alg».proof.Proof.Spec
import proofs.«168334_j24696061952473_1_alg».proof.Proof.Gen.KernelIdeal.Skeleton
import Idealize.ShloMosaic.Lib.Pipeline.Value
import Idealize.ShloMosaic.Lib.ValueLayout

noncomputable section

namespace Gmm.Ker

open Cert.KernelIdeal Cert.KernelIdeal.Gen Idealize.ShloMosaic Idealize.ShloMosaic.TcCoe Idealize.ShloMosaic.ValueIdx Gmm

/-! ## The layout operations of the stage, read at coordinates -/

section Layout
variable {α : Type}

/-- The block with its leading unit axis dropped: channel, row, column. -/
theorem block_apply (x : S1x512x16x128.Idx → α) (h : S1x512x16x128.ShapeCasts S512x16x128) (ch : Fin 512) (hh : Fin 16) (w : Fin 128) :
    shapeCast S512x16x128 x h (ix3 ch hh w) = x (ix4 (0 : Fin 1) ch hh w) :=
  shapeCast_1abc_abc_apply x h ch hh w

/-- A per-pixel row with a unit axis put in front. -/
theorem unitRow_apply (x : S16x128.Idx → α) (h : S16x128.ShapeCasts S1x16x128) (u : Fin 1) (hh : Fin 16) (w : Fin 128) :
    shapeCast S1x16x128 x h (ix3 u hh w) = x (ix2 hh w) :=
  shapeCast_ab_1ab_apply x h u hh w

/-- A row of per-pixel values copied to every channel. -/
theorem overChan_apply (r : S1x16x128.Idx → α) (h : S1x16x128.Broadcasts S512x16x128) (ch : Fin 512) (hh : Fin 16) (w : Fin 128) :
    broadcastTo S512x16x128 r h (ix3 ch hh w) = r (ix3 (0 : Fin 1) hh w) :=
  broadcastTo_apply r h _ _ fun a => match a with
    | ⟨0, _⟩ => rfl
    | ⟨1, _⟩ => rfl
    | ⟨2, _⟩ => rfl

/-- A per-channel column copied to every pixel. -/
theorem overPix_apply (g : S512x1x1.Idx → α) (h : S512x1x1.Broadcasts S512x16x128) (ch : Fin 512) (hh : Fin 16) (w : Fin 128) :
    broadcastTo S512x16x128 g h (ix3 ch hh w) = g (ix3 ch (0 : Fin 1) (0 : Fin 1)) :=
  broadcastTo_apply g h _ _ fun a => match a with
    | ⟨0, _⟩ => rfl
    | ⟨1, _⟩ => rfl
    | ⟨2, _⟩ => rfl

/-- The channels moved last: entry (hh, w, ch) of the result is entry (ch, hh, w) of the operand. -/
theorem chanLast_apply (x : S512x16x128.Idx → α) (h : S512x16x128.Transposes [1, 2, 0] S16x128x512) (hh : Fin 16) (w : Fin 128) (ch : Fin 512) :
    transpose S16x128x512 [1, 2, 0] x h (ix3 hh w ch) = x (ix3 ch hh w) :=
  transpose_apply _ x h _ _ fun b => match b with
    | ⟨0, _⟩ => rfl
    | ⟨1, _⟩ => rfl
    | ⟨2, _⟩ => rfl

/-- The 16 × 128 pixels flattened to 2048 rows: row hh·128 + w is pixel (hh, w). -/
theorem rows_apply (x : S16x128x512.Idx → α) (h : S16x128x512.ShapeCasts S2048x512) (hh : Fin 16) (w : Fin 128) (ch : Fin 512) :
    shapeCast S2048x512 x h (ix2 (rowIn hh w) ch) = x (ix3 hh w ch) :=
  shapeCast_apply x h _ _ (by
    rw [Shape.rowMajor_val_three, Shape.rowMajor_val_two]
    rfl)

end Layout

/-- The sum over the leading (channel) axis at pixel (hh, w) is the sum over the 512 channels. -/
theorem chanSum_apply (v : FVec Ideal S512x16x128 .f32) (h : S512x16x128.Reduces [0] S16x128) (hφ : FKind.Formats .f32)
    (hacc : (0x00000000#32 : BitVec 32) = FKind.add.neutral .f32 hφ) (hh : Fin 16) (w : Fin 128) :
    multiReduction .add [0] S16x128 v 0x00000000#32 h hφ hacc (ix2 hh w) = ∑ k : Fin 512, v (ix3 k hh w) := by
  refine (Ideal.multiReduction_add_single v _ h hφ hacc (ix2 hh w)).trans ?_
  refine Finset.sum_congr rfl fun k _ => congrArg v ?_
  funext c
  match c with
  | ⟨0, _⟩ => rfl
  | ⟨1, _⟩ => rfl
  | ⟨2, _⟩ => rfl

/-! ## The stage's arithmetic, as vectors over the block -/

/-- The sum over the channels, kept as the [1, 16, 128] row the body holds it in. -/
def chanSum (X : FVec Ideal S512x16x128 .f32) : FVec Ideal S1x16x128 .f32 :=
  shapeCast S1x16x128 (multiReduction .add [0] S16x128 X 0x00000000#32 Gen.reduces_S512x16x128_S16x128 (.inl rfl) rfl)
    Gen.shapeCasts_S16x128_S1x16x128

/-- A row of per-pixel values over every channel. -/
def overChan (r : FVec Ideal S1x16x128 .f32) : FVec Ideal S512x16x128 .f32 :=
  broadcastTo S512x16x128 r Gen.broadcasts_S1x16x128_S512x16x128

/-- A per-channel column over every pixel. -/
def overPix (g : Vec Ideal S512x1x1 .f32) : FVec Ideal S512x16x128 .f32 :=
  broadcastTo S512x16x128 (shapeCast S512x1x1 g Gen.shapeCasts_S512x1x1_S512x1x1) Gen.broadcasts_S512x1x1_S512x16x128

/-- The block less its mean over the channels. -/
def centred (X : FVec Ideal S512x16x128 .f32) : FVec Ideal S512x16x128 .f32 :=
  subf X (overChan (divf (chanSum X) (broadcast S1x16x128 (Scalar.ofBits (F := Ideal) .f32 0x44000000#32))))

/-- The layer norm over the channels, as the body computes it. -/
def lnormV (X : FVec Ideal S512x16x128 .f32) (G B : Vec Ideal S512x1x1 .f32) : FVec Ideal S512x16x128 .f32 :=
  addf (mulf (mulf (centred X)
      (overChan (rsqrt (addf (divf (chanSum (mulf (centred X) (centred X))) (broadcast S1x16x128 (Scalar.ofBits (F := Ideal) .f32 0x44000000#32)))
        (broadcast S1x16x128 (Scalar.ofBits (F := Ideal) .f32 0x3727C5AC#32))))))
    (overPix G)) (overPix B)

/-- The scaling to unit length over the channels, as the body computes it. -/
def l2nV (Y : FVec Ideal S512x16x128 .f32) : FVec Ideal S512x16x128 .f32 :=
  divf Y (overChan (maximumf (sqrt (chanSum (mulf Y Y))) (broadcast S1x16x128 (Scalar.ofBits (F := Ideal) .f32 0x2B8CBCCC#32))))

theorem chanSum_at (X : FVec Ideal S512x16x128 .f32) (u : Fin 1) (hh : Fin 16) (w : Fin 128) :
    chanSum X (ix3 u hh w) = ∑ k : Fin 512, X (ix3 k hh w) :=
  (unitRow_apply _ _ u hh w).trans (chanSum_apply X _ _ _ hh w)

theorem overChan_at (r : FVec Ideal S1x16x128 .f32) (ch : Fin 512) (hh : Fin 16) (w : Fin 128) :
    overChan r (ix3 ch hh w) = r (ix3 (0 : Fin 1) hh w) :=
  overChan_apply r _ ch hh w

theorem overPix_at (g : Vec Ideal S512x1x1 .f32) (ch : Fin 512) (hh : Fin 16) (w : Fin 128) :
    overPix g (ix3 ch hh w) = g (ix3 ch (0 : Fin 1) (0 : Fin 1)) := by
  refine (overPix_apply _ _ ch hh w).trans ?_
  rw [shapeCast_self]

/-- The centred value at (ch, hh, w): the entry less the mean of the pixel's 512 channel values. -/
theorem centred_at (X : FVec Ideal S512x16x128 .f32) (ch : Fin 512) (hh : Fin 16) (w : Fin 128) :
    centred X (ix3 ch hh w) = X (ix3 ch hh w) - Ideal.div (∑ k : Fin 512, X (ix3 k hh w)) n512 := by
  show X (ix3 ch hh w) - overChan _ (ix3 ch hh w) = _
  rw [overChan_at]
  show _ - Ideal.div (chanSum X (ix3 (0 : Fin 1) hh w)) n512 = _
  rw [chanSum_at]

/-- The body's layer norm at (ch, hh, w) is the layer norm of the pixel's channel values, at channel ch. -/
theorem lnormV_at (X : FVec Ideal S512x16x128 .f32) (G B : Vec Ideal S512x1x1 .f32) (ch : Fin 512) (hh : Fin 16) (w : Fin 128) :
    lnormV X G B (ix3 ch hh w)
      = lnorm (fun k => X (ix3 k hh w)) (fun k => G (ix3 k (0 : Fin 1) (0 : Fin 1))) (fun k => B (ix3 k (0 : Fin 1) (0 : Fin 1))) ch := by
  show centred X (ix3 ch hh w) * overChan _ (ix3 ch hh w) * overPix G (ix3 ch hh w) + overPix B (ix3 ch hh w) = _
  rw [overChan_at, overPix_at, overPix_at, centred_at]
  show _ * Ideal.rsqrt (Ideal.div (chanSum (mulf (centred X) (centred X)) (ix3 (0 : Fin 1) hh w)) n512 + epsLN) * _ + _ = _
  rw [chanSum_at]
  simp only [mulf_apply, centred_at]
  rfl

/-- The body's scaling at (ch, hh, w) is the scaling of the pixel's channel values, at channel ch. -/
theorem l2nV_at (Y : FVec Ideal S512x16x128 .f32) (ch : Fin 512) (hh : Fin 16) (w : Fin 128) :
    l2nV Y (ix3 ch hh w) = l2n (fun k => Y (ix3 k hh w)) ch := by
  show Ideal.div (Y (ix3 ch hh w)) (overChan _ (ix3 ch hh w)) = _
  rw [overChan_at]
  show Ideal.div _ (max (Ideal.sqrt (chanSum (mulf Y Y) (ix3 (0 : Fin 1) hh w))) epsL2) = _
  rw [chanSum_at]
  rfl

/-- The feature stage is: drop the block's unit axis, layer norm, unit length, channels last, pixels flattened. -/
theorem pay2_eq (P0 : Vec Ideal S1x512x16x128 .f32) (P1 P2 : Vec Ideal S512x1x1 .f32) :
    k0_pay2 (F := Ideal) P0 P1 P2
      = shapeCast S2048x512 (transpose S16x128x512 [1, 2, 0]
          (l2nV (lnormV (shapeCast S512x16x128 P0 Gen.shapeCasts_S1x512x16x128_S512x16x128) P1 P2))
          Gen.transposes_S512x16x128_p1_2_0_S16x128x512) Gen.shapeCasts_S16x128x512_S2048x512 := rfl

/-- Row (hh, w) of the body's feature matrix is the pixel's feature vector. -/
theorem pay2_apply (P0 : Vec Ideal S1x512x16x128 .f32) (P1 P2 : Vec Ideal S512x1x1 .f32) (hh : Fin 16) (w : Fin 128) (ch : Fin 512) :
    k0_pay2 (F := Ideal) P0 P1 P2 (ix2 (rowIn hh w) ch) = feat (fun c' => P0 (ix4 (0 : Fin 1) c' hh w)) (fun c' => P1 (ix3 c' (0 : Fin 1) (0 : Fin 1))) (fun c' => P2 (ix3 c' (0 : Fin 1) (0 : Fin 1))) ch := by
  rw [pay2_eq]
  refine (rows_apply _ _ hh w ch).trans ?_
  refine (chanLast_apply _ _ hh w ch).trans ?_
  refine (l2nV_at _ ch hh w).trans ?_
  refine congrArg (fun y => l2n y ch) (funext fun k => ?_)
  refine (lnormV_at _ P1 P2 k hh w).trans ?_
  exact congrArg (fun xs => lnorm xs _ _ k) (funext fun c' => block_apply P0 _ c' hh w)

/-- The narrowed features are the features. -/
theorem pay3_apply (P0 : Vec Ideal S1x512x16x128 .f32) (P1 P2 : Vec Ideal S512x1x1 .f32) (hh : Fin 16) (w : Fin 128) (ch : Fin 512) :
    k0_pay3 (F := Ideal) P0 P1 P2 (ix2 (rowIn hh w) ch) = feat (fun c' => P0 (ix4 (0 : Fin 1) c' hh w)) (fun c' => P1 (ix3 c' (0 : Fin 1) (0 : Fin 1))) (fun c' => P2 (ix3 c' (0 : Fin 1) (0 : Fin 1))) ch :=
  pay2_apply P0 P1 P2 hh w ch

/-- The narrowed squares are the squares of the features. -/
theorem pay4_apply (P0 : Vec Ideal S1x512x16x128 .f32) (P1 P2 : Vec Ideal S512x1x1 .f32) (hh : Fin 16) (w : Fin 128) (ch : Fin 512) :
    k0_pay4 (F := Ideal) P0 P1 P2 (ix2 (rowIn hh w) ch) = feat (fun c' => P0 (ix4 (0 : Fin 1) c' hh w)) (fun c' => P1 (ix3 c' (0 : Fin 1) (0 : Fin 1))) (fun c' => P2 (ix3 c' (0 : Fin 1) (0 : Fin 1))) ch * feat (fun c' => P0 (ix4 (0 : Fin 1) c' hh w)) (fun c' => P1 (ix3 c' (0 : Fin 1) (0 : Fin 1))) (fun c' => P2 (ix3 c' (0 : Fin 1) (0 : Fin 1))) ch := by
  show k0_pay2 (F := Ideal) P0 P1 P2 (ix2 (rowIn hh w) ch) * k0_pay2 (F := Ideal) P0 P1 P2 (ix2 (rowIn hh w) ch) = _
  rw [pay2_apply]

end Gmm.Ker

end
-- ==== Proof.KLogp.lean ====
/-
  The kernel body's log-density stage, read at an index.

  From the feature rows A and their squares B the body forms, for each of the 95 table columns p = m·19 + k,
  −½ (Σ B·T1 − 2 Σ A·T2 + Q3) − LD less its constant (two matrix products into zero, then pointwise steps), takes for
  each class k the maximum over the five column slices m·19 + k, centres over the classes, and averages the squares.
-/
import proofs.«168334_j24696061952473_1_alg».proof.Proof.Spec
import proofs.«168334_j24696061952473_1_alg».proof.Proof.LibMatmul
import proofs.«168334_j24696061952473_1_alg».proof.Proof.Gen.KernelIdeal.Skeleton
import Idealize.ShloMosaic.Lib.Pipeline.Value
import Idealize.ShloMosaic.Lib.ValueLayout

noncomputable section

namespace Gmm.Ker

open Cert.KernelIdeal Cert.KernelIdeal.Gen Idealize.ShloMosaic Idealize.ShloMosaic.TcCoe Idealize.ShloMosaic.ValueIdx Gmm

/-- The class scores of row r: for each class the maximum over the five components of the core less the kernel's constant. -/
def scoreRow (A B : FVec Ideal S2048x512 .bf16) (P3 P4 : Vec Ideal S512x95 .f32) (P5 P6 : Vec Ideal S1x95 .f32) (r : Fin 2048) :
    Fin 19 → EReal := fun k' => max5 fun m =>
  lpK2 (fun d => A (ix2 r d)) (fun d => B (ix2 r d)) (fun d => P3 (ix2 d (pIdx m k'))) (fun d => P4 (ix2 d (pIdx m k')))
    (P5 (ix2 (0 : Fin 1) (pIdx m k'))) (P6 (ix2 (0 : Fin 1) (pIdx m k'))) - cKernel

/-- The kernel's dimension numbers are those of the plain 2048 × 512 by 512 × 95 product. -/
theorem dot_eq_plain : dot_S2048x512_S512x95_S2048x95_1_0_0_1_n_n = DotDims.plain 2048 512 95 := rfl

/-- The product into the zero constant at (r, p): the sum over the 512 channels. -/
theorem mm_apply (l : FVec Ideal S2048x512 .bf16) (t : FVec Ideal S512x95 .bf16) (r : Fin 2048) (p : Fin 95) :
    matmul dot_S2048x512_S512x95_S2048x95_1_0_0_1_n_n none l t (constant (F := Ideal) S2048x95 .f32 0x00000000#32) (ix2 r p)
      = ∑ d : Fin 512, l (ix2 r d) * t (ix2 d p) := by
  simp only [matmul]
  rw [dot_eq_plain]
  exact Cert.Matmul.matmul_plain_apply none l t r p

/-- A column [2048, 1] broadcast over the 19 classes reads its row's one entry. -/
theorem bcol_apply (v : FVec Ideal S2048x1 .f32) (h : S2048x1.Broadcasts S2048x19) (r : Fin 2048) (k : Fin 19) :
    broadcastTo S2048x19 v h (ix2 r k) = v (ix2 r (0 : Fin 1)) := by
  refine broadcastTo_apply v h (ix2 r k) (ix2 r (0 : Fin 1)) fun ax => ?_
  match ax with
  | ⟨0, _⟩ => exact (if_neg (show ¬((2048 : ℕ) = 1) by decide)).symm
  | ⟨1, _⟩ => rfl

/-- A vector [2048] cast to a column [2048, 1] reads its row's entry. -/
theorem ccol_apply (v : FVec Ideal S2048 .f32) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum over axis 1 of a [2048, 19] array at row r: the sum over the 19 classes. -/
theorem sum19_apply (y : FVec Ideal S2048x19 .f32) (h : S2048x19.Reduces [1] S2048) (hφ : FKind.Formats .f32)
    (hacc : (0x00000000#32 : BitVec 32) = 0x00000000#32) (r : Fin 2048) :
    multiReduction .add [1] S2048 y 0x00000000#32 h hφ hacc (ix1 r) = ∑ j : Fin 19, y (ix2 r j) := by
  refine (Ideal.multiReduction_add_single y 0x00000000#32 h hφ hacc (ix1 r)).trans ?_
  refine Finset.sum_congr rfl fun j _ => congrArg y ?_
  funext a
  refine Fin.ext ?_
  match a with
  | ⟨0, _⟩ => rfl
  | ⟨1, _⟩ => rfl

/-- The five column slices: slice m at (r, k) reads column m·19 + k. -/
theorem slice0_apply (x : FVec Ideal S2048x95 .f32) (h : S2048x95.Slices ![0, 0] S2048x19) (r : Fin 2048) (k : Fin 19) :
    extractStridedSlice S2048x19 ![0, 0] x h (ix2 r k) = x (ix2 r (pIdx 0 k)) :=
  slice2_axis1_apply 0 x h r k (pIdx 0 k) (by show 0 * 19 + k.val = 0 + k.val; omega)
theorem slice1_apply (x : FVec Ideal S2048x95 .f32) (h : S2048x95.Slices ![0, 19] S2048x19) (r : Fin 2048) (k : Fin 19) :
    extractStridedSlice S2048x19 ![0, 19] x h (ix2 r k) = x (ix2 r (pIdx 1 k)) :=
  slice2_axis1_apply 19 x h r k (pIdx 1 k) (by show 1 * 19 + k.val = 19 + k.val; omega)
theorem slice2_apply (x : FVec Ideal S2048x95 .f32) (h : S2048x95.Slices ![0, 38] S2048x19) (r : Fin 2048) (k : Fin 19) :
    extractStridedSlice S2048x19 ![0, 38] x h (ix2 r k) = x (ix2 r (pIdx 2 k)) :=
  slice2_axis1_apply 38 x h r k (pIdx 2 k) (by show 2 * 19 + k.val = 38 + k.val; omega)
theorem slice3_apply (x : FVec Ideal S2048x95 .f32) (h : S2048x95.Slices ![0, 57] S2048x19) (r : Fin 2048) (k : Fin 19) :
    extractStridedSlice S2048x19 ![0, 57] x h (ix2 r k) = x (ix2 r (pIdx 3 k)) :=
  slice2_axis1_apply 57 x h r k (pIdx 3 k) (by show 3 * 19 + k.val = 57 + k.val; omega)
theorem slice4_apply (x : FVec Ideal S2048x95 .f32) (h : S2048x95.Slices ![0, 76] S2048x19) (r : Fin 2048) (k : Fin 19) :
    extractStridedSlice S2048x19 ![0, 76] x h (ix2 r k) = x (ix2 r (pIdx 4 k)) :=
  slice2_axis1_apply 76 x h r k (pIdx 4 k) (by show 4 * 19 + k.val = 76 + k.val; omega)

/-- The maximum, folded from the left, of the five column slices: the maximum over the five components. -/
theorem max5_apply (x : FVec Ideal S2048x95 .f32) (r : Fin 2048) (k : Fin 19) :
    maximumf (maximumf (maximumf (maximumf
        (extractStridedSlice S2048x19 ![0, 0] x slices_S2048x95_o0_0_S2048x19)
        (extractStridedSlice S2048x19 ![0, 19] x slices_S2048x95_o0_19_S2048x19))
        (extractStridedSlice S2048x19 ![0, 38] x slices_S2048x95_o0_38_S2048x19))
        (extractStridedSlice S2048x19 ![0, 57] x slices_S2048x95_o0_57_S2048x19))
        (extractStridedSlice S2048x19 ![0, 76] x slices_S2048x95_o0_76_S2048x19) (ix2 r k)
      = max5 fun m => x (ix2 r (pIdx m k)) := by
  simp only [maximumf_apply]
  rw [slice0_apply, slice1_apply, slice2_apply, slice3_apply, slice4_apply]
  rfl

/-- Centring over the classes: the row's entry less the nineteenth of the row's sum. -/
theorem centre_apply (y : FVec Ideal S2048x19 .f32) (r : Fin 2048) (k : Fin 19) :
    subf y (broadcastTo S2048x19
        (divf (shapeCast S2048x1 (multiReduction .add [1] S2048 y 0x00000000#32 reduces_S2048x19_S2048 (.inl rfl) rfl) shapeCasts_S2048_S2048x1)
          (broadcast S2048x1 (Scalar.ofBits (F := Ideal) .f32 0x41980000#32)))
        broadcasts_S2048x1_S2048x19) (ix2 r k)
      = centre (fun j => y (ix2 r j)) k := by
  rw [subf_apply, bcol_apply, divf_apply, ccol_apply, sum19_apply]
  rfl

/-- The core less the kernel's constant at row r and table column p: the two products, the doubling, the two broadcast
    rows, the halving and the two subtractions, each read at (r, p). -/
theorem core_apply (A B : FVec Ideal S2048x512 .bf16) (P3 P4 : Vec Ideal S512x95 .f32) (P5 P6 : Vec Ideal S1x95 .f32)
    (r : Fin 2048) (p : Fin 95) :
    subf (subf (mulf (broadcast S2048x95 (Scalar.ofBits (F := Ideal) .f32 0xBF000000#32))
        (addf (subf
            (matmul dot_S2048x512_S512x95_S2048x95_1_0_0_1_n_n none B
              (truncf .bf16 (shapeCast S512x95 P3 shapeCasts_S512x95_S512x95) bitsLt_bf16_f32)
              (constant (F := Ideal) S2048x95 .f32 0x00000000#32))
            (mulf (broadcast S2048x95 (Scalar.ofBits (F := Ideal) .f32 0x40000000#32))
              (matmul dot_S2048x512_S512x95_S2048x95_1_0_0_1_n_n none A
                (truncf .bf16 (shapeCast S512x95 P4 shapeCasts_S512x95_S512x95) bitsLt_bf16_f32)
                (constant (F := Ideal) S2048x95 .f32 0x00000000#32))))
          (broadcastTo S2048x95 (shapeCast S1x95 P5 shapeCasts_S1x95_S1x95) broadcasts_S1x95_S2048x95)))
        (broadcastTo S2048x95 (shapeCast S1x95 P6 shapeCasts_S1x95_S1x95) broadcasts_S1x95_S2048x95))
      (broadcast S2048x95 (Scalar.ofBits (F := Ideal) .f32 0x43EB3F8E#32)) (ix2 r p)
      = lpK2 (fun d => A (ix2 r d)) (fun d => B (ix2 r d)) (fun d => P3 (ix2 d p)) (fun d => P4 (ix2 d p))
          (P5 (ix2 (0 : Fin 1) p)) (P6 (ix2 (0 : Fin 1) p)) - cKernel := by
  rw [shapeCast_self, shapeCast_self, shapeCast_self, shapeCast_self]
  rw [subf_apply, subf_apply, mulf_apply, addf_apply, subf_apply, mulf_apply, mm_apply, mm_apply,
    broadcastTo_1b_ab_apply, broadcastTo_1b_ab_apply]
  rfl

/-- The centred class scores. -/
theorem pay5_apply (A B : FVec Ideal S2048x512 .bf16) (P3 P4 : Vec Ideal S512x95 .f32) (P5 P6 : Vec Ideal S1x95 .f32) (r : Fin 2048) (k : Fin 19) :
    k0_pay5 (F := Ideal) A B P3 P4 P5 P6 (ix2 r k) = centre (scoreRow A B P3 P4 P5 P6 r) k := by
  unfold k0_pay5
  refine (centre_apply _ r k).trans ?_
  refine congrArg (fun v => centre v k) (funext fun j => ?_)
  refine (max5_apply _ r j).trans ?_
  exact congrArg max5 (funext fun m => core_apply A B P3 P4 P5 P6 r (pIdx m j))

/-- The mean square of the centred class scores. -/
theorem pay6_apply (A B : FVec Ideal S2048x512 .bf16) (P3 P4 : Vec Ideal S512x95 .f32) (P5 P6 : Vec Ideal S1x95 .f32) (r : Fin 2048) :
    k0_pay6 (F := Ideal) A B P3 P4 P5 P6 (ix2 r (0 : Fin 1)) = Ideal.div (∑ j, centre (scoreRow A B P3 P4 P5 P6 r) j * centre (scoreRow A B P3 P4 P5 P6 r) j) n19 := by
  unfold k0_pay6
  rw [divf_apply, ccol_apply, sum19_apply]
  refine congrArg (fun s => Ideal.div s _) (Finset.sum_congr rfl fun j _ => ?_)
  rw [mulf_apply, pay5_apply]

/-- The variance offset. -/
theorem pay7_apply (r : Fin 2048) : k0_pay7 (F := Ideal) (ix2 r (0 : Fin 1)) = epsLN := rfl

end Gmm.Ker

end
-- ==== Proof.KBlock.lean ====
/-
  What the kernel body leaves in the output block, read at an index.

  The block's one store re-lays the layer-normalised class scores from (2048, 19) to (1, 19, 16, 128): entry
  (0, k, hh, w) is row hh·128 + w, class k. With the feature stage and the log-density stage read at an index, that
  entry is the head's result for the pixel, computed from the block of x and the staged tables.
-/
import proofs.«168334_j24696061952473_1_alg».proof.Proof.KFeat
import proofs.«168334_j24696061952473_1_alg».proof.Proof.KLogp
import proofs.«168334_j24696061952473_1_alg».proof.Proof.Gen.KernelIdeal.Frame

noncomputable section

namespace Gmm.Ker

open Cert.KernelIdeal Cert.KernelIdeal.Gen Idealize.ShloMosaic Idealize.ShloMosaic.TcCoe Idealize.ShloMosaic.ValueIdx Gmm

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- A column [2048, 1] spread over the 19 classes, read at (r, k): the column at (r, 0). -/
theorem spread_col (u : FVec Ideal S2048x1 .f32) (r : Fin 2048) (k : Fin 19) :
    broadcastTo S2048x19 u broadcasts_S2048x1_S2048x19 (ix2 r k) = u (ix2 r (0 : Fin 1)) :=
  broadcastTo_apply _ _ (ix2 r k) (ix2 r (0 : Fin 1)) (fun a => match a with
    | ⟨0, _⟩ => by show r.val = (if (2048 : Nat) = 1 then 0 else r.val); rw [if_neg (by decide)]
    | ⟨1, _⟩ => by show 0 = (if (1 : Nat) = 1 then 0 else k.val); rw [if_pos rfl])

/-- A row [1, 19] spread over the 2048 pixel rows, read at (r, k): the row at (0, k). -/
theorem spread_row (u : Vec Ideal S1x19 .f32) (r : Fin 2048) (k : Fin 19) :
    broadcastTo S2048x19 (shapeCast S1x19 u shapeCasts_S1x19_S1x19) broadcasts_S1x19_S2048x19 (ix2 r k) = u (ix2 (0 : Fin 1) k) := by
  refine (broadcastTo_apply _ _ (ix2 r k) (ix2 (0 : Fin 1) k) (fun a => match a with
    | ⟨0, _⟩ => by show 0 = (if (1 : Nat) = 1 then 0 else r.val); rw [if_pos rfl]
    | ⟨1, _⟩ => by show k.val = (if (19 : Nat) = 1 then 0 else k.val); rw [if_neg (by decide)])).trans ?_
  exact shapeCast_apply _ _ (ix2 (0 : Fin 1) k) (ix2 (0 : Fin 1) k) rfl

/-- The last payload at (0, k, hh, w): row hh·128 + w, class k of the scaled, shifted, normalised scores. -/
theorem pay1_apply (v76 : FVec Ideal S2048x19 .f32) (v81 v82 : FVec Ideal S2048x1 .f32) (v87 v91 : Vec Ideal S1x19 .f32)
    (k : Fin 19) (hh : Fin 16) (w : Fin 128) :
    k0_pay1 (F := Ideal) v76 v81 v82 v87 v91 (ix4 (0 : Fin 1) k hh w)
      = v76 (ix2 (rowIn hh w) k) * Ideal.rsqrt (v81 (ix2 (rowIn hh w) (0 : Fin 1)) + v82 (ix2 (rowIn hh w) (0 : Fin 1)))
          * v87 (ix2 (0 : Fin 1) k) + v91 (ix2 (0 : Fin 1) k) := by
  have hk := k.isLt
  have hh' := hh.isLt
  have hw := w.isLt
  unfold k0_pay1
  dsimp only
  refine (shapeCast_apply _ _ (ix4 (0 : Fin 1) k hh w) (ix3 k hh w) (by
    rw [Shape.rowMajor_val_three, Shape.rowMajor_val_four]
    show (k.val * 16 + hh.val) * 128 + w.val = ((0 * 19 + k.val) * 16 + hh.val) * 128 + w.val
    omega)).trans ?_
  refine (transpose_apply [2, 0, 1] _ _ (ix3 k hh w) (ix3 hh w k) (fun b => match b with
    | ⟨0, _⟩ => rfl
    | ⟨1, _⟩ => rfl
    | ⟨2, _⟩ => rfl)).trans ?_
  refine (shapeCast_apply _ _ (ix3 hh w k) (ix2 (rowIn hh w) k) (by
    rw [Shape.rowMajor_val_two, Shape.rowMajor_val_three]
    show (hh.val * 128 + w.val) * 19 + k.val = (hh.val * 128 + w.val) * 19 + k.val
    rfl)).trans ?_
  show v76 (ix2 (rowIn hh w) k)
        * broadcastTo S2048x19 (rsqrt (addf v81 v82)) broadcasts_S2048x1_S2048x19 (ix2 (rowIn hh w) k)
        * broadcastTo S2048x19 (shapeCast S1x19 v87 shapeCasts_S1x19_S1x19) broadcasts_S1x19_S2048x19 (ix2 (rowIn hh w) k)
      + broadcastTo S2048x19 (shapeCast S1x19 v91 shapeCasts_S1x19_S1x19) broadcasts_S1x19_S2048x19 (ix2 (rowIn hh w) k) = _
  rw [spread_col, spread_row, spread_row]
  rfl

/-- The body's output block at (0, k, hh, w) is the block-level result. -/
theorem out_block_eq (x0 : Vec Ideal S1x512x16x128 .f32) (x1 x2 : Vec Ideal S512x95 .f32) (x3 x4 : Vec Ideal S1x95 .f32)
    (x5 x6 : Vec Ideal S512x1x1 .f32) (x7 x8 : Vec Ideal S1x19 .f32) (k : Fin 19) (hh : Fin 16) (w : Fin 128) :
    out0_9 (F := Ideal) x0 x1 x2 x3 x4 x5 x6 x7 x8 (ix4 (0 : Fin 1) k hh w) = Bat cKernel x0 x5 x6 x1 x2 x3 x4 x7 x8 k hh w := by
  unfold out0_9
  rw [View.canon_unit_zero zero4]
  simp only [View.ld_unit_zero (S := S1x512x16x128) zero4, View.ld_unit_zero (S := S512x1x1) zero3,
    View.ld_unit_zero (S := S512x95) zero2, View.ld_unit_zero (S := S1x95) zero2, View.ld_unit_zero (S := S1x19) zero2]
  rw [pay1_apply, pay5_apply, pay6_apply, pay7_apply]
  have hs : scoreRow (k0_pay3 (F := Ideal) x0 x5 x6) (k0_pay4 (F := Ideal) x0 x5 x6) x1 x2 x3 x4 (rowIn hh w)
      = fun k' => max5 fun m =>
          lpK (feat (fun ch => x0 (ix4 (0 : Fin 1) ch hh w)) (fun ch => x5 (ix3 ch (0 : Fin 1) (0 : Fin 1))) (fun ch => x6 (ix3 ch (0 : Fin 1) (0 : Fin 1))))
            (fun d => x1 (ix2 d (pIdx m k'))) (fun d => x2 (ix2 d (pIdx m k')))
            (x3 (ix2 (0 : Fin 1) (pIdx m k'))) (x4 (ix2 (0 : Fin 1) (pIdx m k'))) - cKernel := by
    funext k'
    unfold scoreRow lpK
    simp only [pay3_apply, pay4_apply]
  rw [hs]
  unfold Bat
  rw [headLN_eq_centre]

end Gmm.Ker

end
-- ==== Proof.KTables.lean ====
/-
  The tables the kernel's host operations stage, read at an index.

  Before the launch the host scales each mean row to unit length, forms 1/σ², moves the component axis first so that
  (m, k) is row m·19 + k of 95, transposes to 512 × 95, and sums μ²/σ² and log σ over the 512 coordinates; the affine
  vectors are reshaped to columns and rows.
-/
import proofs.«168334_j24696061952473_1_alg».proof.Proof.Spec
import proofs.«168334_j24696061952473_1_alg».proof.Proof.Gen.KernelIdeal.Frame
import Idealize.ShloMosaic.Lib.Pipeline.Value
import Idealize.ShloMosaic.Lib.ValueLayout
import Idealize.ShloMosaic.Lib.IdealHost
import Idealize.ShloMosaic.Lib.StableHlo.Run

noncomputable section

namespace Gmm.Ker.Tab

open Cert.KernelIdeal Cert.KernelIdeal.Gen Idealize.ShloMosaic Idealize.ShloMosaic.TcCoe Idealize.ShloMosaic.ValueIdx Gmm

variable (m : (ℓ : Loc nD τ sig) → Buf (Elt Ideal) ℓ)

/-! ## The host's intermediate arrays, as terms of the two arguments -/

/-- The floored Euclidean length of every mean row, as a [19,5,1] column: max(√Σ_d μ², ε). -/
def hLen (x1 : FVec Ideal S19x5x512 .f32) : FVec Ideal S19x5x1 .f32 :=
  maximumf
    (Host.sqrt (F := Ideal) (broadcastInDim S19x5x1 ![0, 1] bcast_S19x5_S19x5x1_0_1
      (Host.reduceAdd (F := Ideal) (mulf x1 x1) (constant (F := Ideal) S_ .f32 0x00000000#32) reducesTo_S19x5x512_S19x5_d2 h_S_)))
    (broadcastInDim S19x5x1 ![] bcast_S_S19x5x1 (constant (F := Ideal) S_ .f32 0x2B8CBCCC#32))

/-- The mean rows scaled to unit length. -/
def hMu (x1 : FVec Ideal S19x5x512 .f32) : FVec Ideal S19x5x512 .f32 :=
  Host.divf (F := Ideal) x1 (broadcastInDim S19x5x512 ![0, 1, 2] bcast_S19x5x1_S19x5x512_0_1_2 (hLen x1))

/-- The inverse variances 1/σ². -/
def hIv (x2 : FVec Ideal S19x5x512 .f32) : FVec Ideal S19x5x512 .f32 :=
  Host.divf (F := Ideal) (broadcastInDim S19x5x512 ![] bcast_S_S19x5x512 (constant (F := Ideal) S_ .f32 0x3F800000#32)) (mulf x2 x2)

/-- The component-major rearrangement [19,5,512] → [5,19,512] → [95,512]: row m·19 + k is row (k, m). -/
def cm (y : FVec Ideal S19x5x512 .f32) : FVec Ideal S95x512 .f32 :=
  shapeCast S95x512 (transpose S5x19x512 [1, 0, 2] y transposes_S19x5x512_S5x19x512_1_0_2) shapeCasts_S5x19x512_S95x512

/-- Row m·19 + k of the rearranged array is row (k, m) of the original. -/
theorem cm_apply (y : FVec Ideal S19x5x512 .f32) (mm : Fin 5) (k : Fin 19) (d : Fin 512) :
    cm y (ix2 (pIdx mm k) d) = y (ix3 k mm d) := by
  unfold cm
  refine (shapeCast_apply _ shapeCasts_S5x19x512_S95x512 (ix2 (pIdx mm k) d) (ix3 mm k d) ?_).trans ?_
  · rw [Shape.rowMajor_val_three, Shape.rowMajor_val_two]
    show (mm.val * 19 + k.val) * 512 + d.val = (mm.val * 19 + k.val) * 512 + d.val
    rfl
  · exact transpose_apply [1, 0, 2] y transposes_S19x5x512_S5x19x512_1_0_2 (ix3 mm k d) (ix3 k mm d) (fun b => match b with
      | ⟨0, _⟩ => rfl
      | ⟨1, _⟩ => rfl
      | ⟨2, _⟩ => rfl)

/-- The inverse variance at (k, m, d). -/
theorem hIv_apply (x2 : FVec Ideal S19x5x512 .f32) (mm : Fin 5) (k : Fin 19) (d : Fin 512) :
    hIv x2 (ix3 k mm d) = ivOf (fun d' => x2 (ix3 k mm d')) d := by
  unfold hIv
  rw [hostDivf_apply, broadcastInDim_scalar_apply]
  rfl

/-- The floored length of row (k, m). -/
theorem hLen_apply (x1 : FVec Ideal S19x5x512 .f32) (mm : Fin 5) (k : Fin 19) :
    hLen x1 (ix3 k mm (0 : Fin 1))
      = max (Ideal.sqrt (∑ d' : Fin 512, x1 (ix3 k mm d') * x1 (ix3 k mm d'))) (Ideal.ofBits .f32 0x2B8CBCCC#32) := by
  unfold hLen
  rw [maximumf_apply, broadcastInDim_scalar_apply]
  refine congrArg (fun z => max (Ideal.sqrt z) _) ?_
  refine (broadcastInDim_apply _ bcast_S19x5_S19x5x1_0_1 _ (ix3 k mm (0 : Fin 1)) (ix2 k mm) (fun a => match a with
    | ⟨0, _⟩ => by show k.val = if (19 : Nat) = 1 then 0 else k.val; rw [if_neg (by decide)]
    | ⟨1, _⟩ => by show mm.val = if (5 : Nat) = 1 then 0 else mm.val; rw [if_neg (by decide)])).trans ?_
  rw [hostReduceAdd_apply, Ideal.hostReduceAdd_single reducesTo_S19x5x512_S19x5_d2 (by decide)]
  refine (congrArg (· + _) Ideal.ofBits_zero_f32).trans ((zero_add _).trans ?_)
  refine Finset.sum_congr rfl fun d' _ => ?_
  rw [mulf_apply]
  have hi : ((by decide : S19x5x512.Reduces [2] S19x5).lift (ix2 k mm) d') = ix3 k mm d' :=
    funext fun a => Fin.ext (by match a with | ⟨0, _⟩ => rfl | ⟨1, _⟩ => rfl | ⟨2, _⟩ => rfl)
  rw [hi]
  rfl

/-- The scaled mean at (k, m, d). -/
theorem hMu_apply (x1 : FVec Ideal S19x5x512 .f32) (mm : Fin 5) (k : Fin 19) (d : Fin 512) :
    hMu x1 (ix3 k mm d) = l2n (fun d' => x1 (ix3 k mm d')) d := by
  unfold hMu l2n epsL2
  rw [hostDivf_apply]
  refine congrArg (Ideal.div _) ?_
  refine (broadcastInDim_apply _ bcast_S19x5x1_S19x5x512_0_1_2 _ (ix3 k mm d) (ix3 k mm (0 : Fin 1)) (fun a => match a with
    | ⟨0, _⟩ => by show k.val = if (19 : Nat) = 1 then 0 else k.val; rw [if_neg (by decide)]
    | ⟨1, _⟩ => by show mm.val = if (5 : Nat) = 1 then 0 else mm.val; rw [if_neg (by decide)]
    | ⟨2, _⟩ => by show 0 = if (1 : Nat) = 1 then 0 else d.val; rw [if_pos rfl])).trans ?_
  exact hLen_apply x1 mm k

/-- A [95,512] array summed over its 512 columns from the zero word, laid out as a [1,95] row. -/
def rowSum (y : FVec Ideal S95x512 .f32) : FVec Ideal S1x95 .f32 :=
  broadcastInDim S1x95 ![1] bcast_S95_S1x95_1
    (Host.reduceAdd (F := Ideal) y (constant (F := Ideal) S_ .f32 0x00000000#32) reducesTo_S95x512_S95_d1 h_S_)

/-- Entry p of the row of sums is the sum of row p: the zero word is the real zero. -/
theorem rowSum_apply (y : FVec Ideal S95x512 .f32) (p : Fin 95) :
    rowSum y (ix2 (0 : Fin 1) p) = ∑ d : Fin 512, y (ix2 p d) := by
  unfold rowSum
  refine (broadcastInDim_apply _ bcast_S95_S1x95_1 _ (ix2 (0 : Fin 1) p) (ix1 p) (fun a => match a with
    | ⟨0, _⟩ => by show p.val = if (95 : Nat) = 1 then 0 else p.val; rw [if_neg (by decide)])).trans ?_
  rw [hostReduceAdd_apply, Ideal.hostReduceAdd_single reducesTo_S95x512_S95_d1 (by decide)]
  refine (congrArg (· + _) Ideal.ofBits_zero_f32).trans ((zero_add _).trans ?_)
  refine Finset.sum_congr rfl fun d _ => ?_
  exact congrArg y (funext fun a => Fin.ext (by match a with | ⟨0, _⟩ => rfl | ⟨1, _⟩ => rfl))

/-- A [95,512] array transposed to [512,95], read at (d, p). -/
theorem tr_apply (y : FVec Ideal S95x512 .f32) (d : Fin 512) (p : Fin 95) :
    transpose S512x95 [1, 0] y transposes_S95x512_S512x95_1_0 (ix2 d p) = y (ix2 p d) :=
  transpose_apply [1, 0] y transposes_S95x512_S512x95_1_0 (ix2 d p) (ix2 p d) (fun b => match b with
    | ⟨0, _⟩ => rfl
    | ⟨1, _⟩ => rfl)

/-- A [512] vector reshaped to a [512,1,1] column, read at (ch, 0, 0). -/
theorem col_apply (y : FVec Ideal S512 .f32) (ch : Fin 512) :
    shapeCast S512x1x1 y shapeCasts_S512_S512x1x1 (ix3 ch (0 : Fin 1) (0 : Fin 1)) = y (ix1 ch) := by
  refine shapeCast_apply y shapeCasts_S512_S512x1x1 _ (ix1 ch) ?_
  rw [Shape.rowMajor_val_one, Shape.rowMajor_val_three]
  show ch.val = (ch.val * 1 + 0) * 1 + 0
  omega

/-- A [19] vector reshaped to a [1,19] row, read at (0, k). -/
theorem row_apply (y : FVec Ideal S19 .f32) (k : Fin 19) :
    shapeCast S1x19 y shapeCasts_S19_S1x19 (ix2 (0 : Fin 1) k) = y (ix1 k) := by
  refine shapeCast_apply y shapeCasts_S19_S1x19 _ (ix1 k) ?_
  rw [Shape.rowMajor_val_one, Shape.rowMajor_val_two]
  show k.val = 0 * 19 + k.val
  omega

/-! ## What the host operations leave in each staged buffer, as a term of the arguments -/

theorem V_T1 (c : Dev nD) :
    (V m c main_v14 : S512x95.Idx → EReal)
      = transpose S512x95 [1, 0] (cm (hIv ((m ((c : Thread nD τ).loc main_arg2)) : S19x5x512.Idx → EReal))) transposes_S95x512_S512x95_1_0 := by
  dsimp only [V]
  simp only [hostOps0, hostOps0_1, List.flatten_cons, List.flatten_nil, List.append_nil, List.cons_append, List.nil_append]
  after_results
  rfl

theorem V_T2 (c : Dev nD) :
    (V m c main_v16 : S512x95.Idx → EReal)
      = transpose S512x95 [1, 0] (mulf (cm (hMu ((m ((c : Thread nD τ).loc main_arg1)) : S19x5x512.Idx → EReal))) (cm (hIv ((m ((c : Thread nD τ).loc main_arg2)) : S19x5x512.Idx → EReal)))) transposes_S95x512_S512x95_1_0 := by
  dsimp only [V]
  simp only [hostOps0, hostOps0_1, List.flatten_cons, List.flatten_nil, List.append_nil, List.cons_append, List.nil_append]
  after_results_simp
  rfl

theorem V_Q3 (c : Dev nD) :
    (V m c main_v20 : S1x95.Idx → EReal)
      = rowSum (mulf (mulf (cm (hMu ((m ((c : Thread nD τ).loc main_arg1)) : S19x5x512.Idx → EReal))) (cm (hMu ((m ((c : Thread nD τ).loc main_arg1)) : S19x5x512.Idx → EReal)))) (cm (hIv ((m ((c : Thread nD τ).loc main_arg2)) : S19x5x512.Idx → EReal)))) := by
  dsimp only [V]
  simp only [hostOps0, hostOps0_1, List.flatten_cons, List.flatten_nil, List.append_nil, List.cons_append, List.nil_append]
  after_results_simp
  rfl

theorem V_LD (c : Dev nD) :
    (V m c main_v23 : S1x95.Idx → EReal)
      = rowSum (Host.log (F := Ideal) (cm ((m ((c : Thread nD τ).loc main_arg2)) : S19x5x512.Idx → EReal))) := by
  dsimp only [V]
  simp only [hostOps0, hostOps0_1, List.flatten_cons, List.flatten_nil, List.append_nil, List.cons_append, List.nil_append]
  after_results
  rfl

theorem V_fg (c : Dev nD) :
    (V m c main_v24 : S512x1x1.Idx → EReal)
      = shapeCast S512x1x1 ((m ((c : Thread nD τ).loc main_arg3)) : S512.Idx → EReal) shapeCasts_S512_S512x1x1 := by
  dsimp only [V]
  simp only [hostOps0, hostOps0_1, List.flatten_cons, List.flatten_nil, List.append_nil, List.cons_append, List.nil_append]
  after_results
  rfl

theorem V_fb (c : Dev nD) :
    (V m c main_v25 : S512x1x1.Idx → EReal)
      = shapeCast S512x1x1 ((m ((c : Thread nD τ).loc main_arg4)) : S512.Idx → EReal) shapeCasts_S512_S512x1x1 := by
  dsimp only [V]
  simp only [hostOps0, hostOps0_1, List.flatten_cons, List.flatten_nil, List.append_nil, List.cons_append, List.nil_append]
  after_results
  rfl

theorem V_mg (c : Dev nD) :
    (V m c main_v26 : S1x19.Idx → EReal)
      = shapeCast S1x19 ((m ((c : Thread nD τ).loc main_arg5)) : S19.Idx → EReal) shapeCasts_S19_S1x19 := by
  dsimp only [V]
  simp only [hostOps0, hostOps0_1, List.flatten_cons, List.flatten_nil, List.append_nil, List.cons_append, List.nil_append]
  after_results
  rfl

theorem V_mb (c : Dev nD) :
    (V m c main_v27 : S1x19.Idx → EReal)
      = shapeCast S1x19 ((m ((c : Thread nD τ).loc main_arg6)) : S19.Idx → EReal) shapeCasts_S19_S1x19 := by
  dsimp only [V]
  simp only [hostOps0, hostOps0_1, List.flatten_cons, List.flatten_nil, List.append_nil, List.cons_append, List.nil_append]
  after_results
  rfl

end Gmm.Ker.Tab

namespace Gmm.Ker

open Cert.KernelIdeal Cert.KernelIdeal.Gen Idealize.ShloMosaic Idealize.ShloMosaic.TcCoe Idealize.ShloMosaic.ValueIdx Gmm
open Tab

variable (m : (ℓ : Loc nD τ sig) → Buf (Elt Ideal) ℓ)

/-- Column m·19 + k of the inverse-variance table. -/
theorem tab_T1 (c : Dev nD) (d : Fin 512) (mm : Fin 5) (k : Fin 19) :
    (V m c main_v14 : S512x95.Idx → EReal) (ix2 d (pIdx mm k)) = ivOf (fun d' => ((m ((c : Thread nD τ).loc main_arg2)) : S19x5x512.Idx → EReal) (ix3 k mm d')) d := by
  rw [V_T1 m c, tr_apply, cm_apply, hIv_apply]

/-- Column m·19 + k of the mean-times-inverse-variance table. -/
theorem tab_T2 (c : Dev nD) (d : Fin 512) (mm : Fin 5) (k : Fin 19) :
    (V m c main_v16 : S512x95.Idx → EReal) (ix2 d (pIdx mm k))
      = l2n (fun d' => ((m ((c : Thread nD τ).loc main_arg1)) : S19x5x512.Idx → EReal) (ix3 k mm d')) d * ivOf (fun d' => ((m ((c : Thread nD τ).loc main_arg2)) : S19x5x512.Idx → EReal) (ix3 k mm d')) d := by
  rw [V_T2 m c, tr_apply, mulf_apply, cm_apply, cm_apply, hMu_apply, hIv_apply]

/-- Entry m·19 + k of the Σ μ²/σ² row. -/
theorem tab_Q3 (c : Dev nD) (mm : Fin 5) (k : Fin 19) :
    (V m c main_v20 : S1x95.Idx → EReal) (ix2 (0 : Fin 1) (pIdx mm k))
      = ∑ d, (l2n (fun d' => ((m ((c : Thread nD τ).loc main_arg1)) : S19x5x512.Idx → EReal) (ix3 k mm d')) d * l2n (fun d' => ((m ((c : Thread nD τ).loc main_arg1)) : S19x5x512.Idx → EReal) (ix3 k mm d')) d)
          * ivOf (fun d' => ((m ((c : Thread nD τ).loc main_arg2)) : S19x5x512.Idx → EReal) (ix3 k mm d')) d := by
  rw [V_Q3 m c, rowSum_apply]
  show @Eq EReal _ _
  refine Finset.sum_congr rfl fun d _ => ?_
  rw [mulf_apply, mulf_apply, cm_apply, cm_apply, hMu_apply, hIv_apply]

/-- Entry m·19 + k of the Σ log σ row. -/
theorem tab_LD (c : Dev nD) (mm : Fin 5) (k : Fin 19) :
    (V m c main_v23 : S1x95.Idx → EReal) (ix2 (0 : Fin 1) (pIdx mm k)) = ∑ d, Ideal.log (((m ((c : Thread nD τ).loc main_arg2)) : S19x5x512.Idx → EReal) (ix3 k mm d)) := by
  rw [V_LD m c, rowSum_apply]
  show @Eq EReal _ _
  refine Finset.sum_congr rfl fun d _ => ?_
  show Ideal.log (cm _ (ix2 (pIdx mm k) d)) = _
  rw [cm_apply]

/-- The feature scale as a column. -/
theorem tab_fg (c : Dev nD) (ch : Fin 512) :
    (V m c main_v24 : S512x1x1.Idx → EReal) (ix3 ch (0 : Fin 1) (0 : Fin 1)) = ((m ((c : Thread nD τ).loc main_arg3)) : S512.Idx → EReal) (ix1 ch) := by
  rw [V_fg m c, col_apply]

/-- The feature shift as a column. -/
theorem tab_fb (c : Dev nD) (ch : Fin 512) :
    (V m c main_v25 : S512x1x1.Idx → EReal) (ix3 ch (0 : Fin 1) (0 : Fin 1)) = ((m ((c : Thread nD τ).loc main_arg4)) : S512.Idx → EReal) (ix1 ch) := by
  rw [V_fb m c, col_apply]

/-- The class scale as a row. -/
theorem tab_mg (c : Dev nD) (k : Fin 19) :
    (V m c main_v26 : S1x19.Idx → EReal) (ix2 (0 : Fin 1) k) = ((m ((c : Thread nD τ).loc main_arg5)) : S19.Idx → EReal) (ix1 k) := by
  rw [V_mg m c, row_apply]

/-- The class shift as a row. -/
theorem tab_mb (c : Dev nD) (k : Fin 19) :
    (V m c main_v27 : S1x19.Idx → EReal) (ix2 (0 : Fin 1) k) = ((m ((c : Thread nD τ).loc main_arg6)) : S19.Idx → EReal) (ix1 k) := by
  rw [V_mb m c, row_apply]

end Gmm.Ker

end
-- ==== Proof.KFinal.lean ====
/-
  The kernel's result array is the specification at the kernel's constant.

  The grid has 4 × 8 points; point (b, j) stages rows 16 j … 16 j + 15 of image b of x, all of every table, and writes
  back rows 16 j … 16 j + 15 of image b of the result. So entry (b, k, h, w) of the result is written by point
  (b, h / 16) at block position (0, k, h mod 16, w), from the pixel (b, h, w) of x; the blocks cover the array.
-/
import proofs.«168334_j24696061952473_1_alg».proof.Proof.KBlock
import proofs.«168334_j24696061952473_1_alg».proof.Proof.KTables
import proofs.«168334_j24696061952473_1_alg».proof.Proof.KValue

noncomputable section

namespace Gmm.Ker

open Cert.KernelIdeal Cert.KernelIdeal.Gen Idealize.ShloMosaic Idealize.ShloMosaic.TcCoe Idealize.ShloMosaic.ValueIdx Gmm

/-! ## The block-level result is the array-level result, given what the block's operands hold -/

/-- If the staged block of x holds the pixel's channels, the staged tables hold the inverse variances, the scaled
    means times them, and the two sums, component-major, and the staged affine maps hold the affine vectors, then the
    block-level result is the array-level result. -/
theorem Bat_eq_Gat_of (c₀ : EReal) (X : SBX.Idx → EReal) (fgB fbB : SA.Idx → EReal) (T1 T2 : ST.Idx → EReal) (Q3 LD : SQ.Idx → EReal)
    (mgB mbB : SG.Idx → EReal) (x : SX.Idx → EReal) (means diag : SM.Idx → EReal) (fg fb : SC.Idx → EReal) (mg mb : SK.Idx → EReal)
    (b : Fin 4) (k : Fin 19) (h : Fin 128) (w : Fin 128) (hh : Fin 16)
    (hx : ∀ ch, X (ix4 (0 : Fin 1) ch hh w) = x (ix4 b ch h w))
    (hfg : ∀ ch, fgB (ix3 ch (0 : Fin 1) (0 : Fin 1)) = fg (ix1 ch)) (hfb : ∀ ch, fbB (ix3 ch (0 : Fin 1) (0 : Fin 1)) = fb (ix1 ch))
    (hT1 : ∀ d mm k', T1 (ix2 d (pIdx mm k')) = ivOf (fun d' => diag (ix3 k' mm d')) d)
    (hT2 : ∀ d mm k', T2 (ix2 d (pIdx mm k')) = l2n (fun d' => means (ix3 k' mm d')) d * ivOf (fun d' => diag (ix3 k' mm d')) d)
    (hQ3 : ∀ mm k', Q3 (ix2 (0 : Fin 1) (pIdx mm k'))
        = ∑ d, (l2n (fun d' => means (ix3 k' mm d')) d * l2n (fun d' => means (ix3 k' mm d')) d) * ivOf (fun d' => diag (ix3 k' mm d')) d)
    (hLD : ∀ mm k', LD (ix2 (0 : Fin 1) (pIdx mm k')) = ∑ d, Ideal.log (diag (ix3 k' mm d)))
    (hmg : ∀ k', mgB (ix2 (0 : Fin 1) k') = mg (ix1 k')) (hmb : ∀ k', mbB (ix2 (0 : Fin 1) k') = mb (ix1 k')) :
    Bat c₀ X fgB fbB T1 T2 Q3 LD mgB mbB k hh w = Gat c₀ x means diag fg fb mg mb b k h w := by
  unfold Bat Gat comp
  simp only [hx, hfg, hfb, hT1, hT2, hQ3, hLD, hmg, hmb]

variable (m : (ℓ : Loc nD τ sig) → Buf (Elt Ideal) ℓ)

/-! ## Where each window's block sits -/

/-- The index maps over the 32 grid points: the block of x moves with the output block on the image and row-block axes
    and stays at 0 on the others; the output block's image index is at most 3, its row-block index at most 7. -/
theorem idx_facts : ∀ t : Fin cfg0.N,
    win0_0.index t (0 : Fin 4) = win0_9.index t (0 : Fin 4) ∧ win0_0.index t (1 : Fin 4) = 0
    ∧ win0_0.index t (2 : Fin 4) = win0_9.index t (2 : Fin 4) ∧ win0_0.index t (3 : Fin 4) = 0
    ∧ win0_9.index t (1 : Fin 4) = 0 ∧ win0_9.index t (3 : Fin 4) = 0
    ∧ win0_9.index t (0 : Fin 4) ≤ 3 ∧ win0_9.index t (2 : Fin 4) ≤ 7 :=
  (by decide +kernel : ∀ t : Fin grid0.N, _)

/-- Every table window stays at block 0 at every point. -/
theorem idx_const : ∀ t : Fin cfg0.N,
    win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

/-- Every (image, row-block) pair is some point's. -/
theorem idx_onto : ∀ (q0 : Fin 4) (q2 : Fin 8), ∃ t : Fin cfg0.N, win0_9.index t = ![q0.val, 0, q2.val, 0] :=
  (by decide +kernel : ∀ (q0 : Fin 4) (q2 : Fin 8), ∃ t : Fin grid0.N, win0_9.index t = ![q0.val, 0, q2.val, 0])

/-- The image a point works on. -/
def imgOf (t : Fin cfg0.N) : Fin 4 := ⟨win0_9.index t (0 : Fin 4), by have := (idx_facts t).2.2.2.2.2.2.1; omega⟩

/-- The image row of a point's block row hh. -/
def rowAt (t : Fin cfg0.N) (hh : Fin 16) : Fin 128 :=
  ⟨win0_9.index t (2 : Fin 4) * 16 + hh.val, by have := (idx_facts t).2.2.2.2.2.2.2; have := hh.isLt; omega⟩

/-! ## The blocks, named at their literal types -/

abbrev bx (c : Dev nD) (t : Fin cfg0.N) : Vec Ideal S1x512x16x128 .f32 := iblk m c 0 t
abbrev bT1 (c : Dev nD) (t : Fin cfg0.N) : Vec Ideal S512x95 .f32 := iblk m c 1 t
abbrev bT2 (c : Dev nD) (t : Fin cfg0.N) : Vec Ideal S512x95 .f32 := iblk m c 2 t
abbrev bQ3 (c : Dev nD) (t : Fin cfg0.N) : Vec Ideal S1x95 .f32 := iblk m c 3 t
abbrev bLD (c : Dev nD) (t : Fin cfg0.N) : Vec Ideal S1x95 .f32 := iblk m c 4 t
abbrev bfg (c : Dev nD) (t : Fin cfg0.N) : Vec Ideal S512x1x1 .f32 := iblk m c 5 t
abbrev bfb (c : Dev nD) (t : Fin cfg0.N) : Vec Ideal S512x1x1 .f32 := iblk m c 6 t
abbrev bmg (c : Dev nD) (t : Fin cfg0.N) : Vec Ideal S1x19 .f32 := iblk m c 7 t
abbrev bmb (c : Dev nD) (t : Fin cfg0.N) : Vec Ideal S1x19 .f32 := iblk m c 8 t

/-- The block of x at point t holds rows 16 j … of image b. -/
theorem rd_x (c : Dev nD) (t : Fin cfg0.N) (ch : Fin 512) (hh : Fin 16) (w : Fin 128) :
    bx m c t (ix4 (0 : Fin 1) ch hh w) = ((m ((c : Thread nD τ).loc main_arg0)) : S4x512x128x128.Idx → EReal) (ix4 (imgOf t) ch (rowAt t hh) w) := by
  obtain ⟨e0, e1, e2, e3, -, -, -, -⟩ := idx_facts t
  show V m c main_arg0 (((cfg0.win 0).blk t).view.emb (ix4 (0 : Fin 1) ch hh w)) = _
  rw [V_main_arg0]
  refine congrArg _ (funext fun a => Fin.ext ?_)
  match a with
  | ⟨0, _⟩ => show win0_0.index t (0 : Fin 4) * 1 + 1 * 0 = win0_9.index t (0 : Fin 4); omega
  | ⟨1, _⟩ => show win0_0.index t (1 : Fin 4) * 512 + 1 * ch.val = ch.val; omega
  | ⟨2, _⟩ => show win0_0.index t (2 : Fin 4) * 16 + 1 * hh.val = win0_9.index t (2 : Fin 4) * 16 + hh.val; omega
  | ⟨3, _⟩ => show win0_0.index t (3 : Fin 4) * 128 + 1 * w.val = w.val; omega

theorem rd_T1 (c : Dev nD) (t : Fin cfg0.N) (d : Fin 512) (p : Fin 95) :
    bT1 m c t (ix2 d p) = (V m c main_v14 : S512x95.Idx → EReal) (ix2 d p) := by
  obtain ⟨a10, a11, a20, a21, a30, a31, a40, a41, a50, a51, a52, a60, a61, a62, a70, a71, a80, a81⟩ := idx_const t
  show V m c main_v14 (((cfg0.win 1).blk t).view.emb (ix2 d p)) = _
  refine congrArg _ (funext fun a => Fin.ext ?_)
  match a with
  | ⟨0, _⟩ => show win0_1.index t (0 : Fin 2) * 512 + 1 * d.val = d.val; omega
  | ⟨1, _⟩ => show win0_1.index t (1 : Fin 2) * 95 + 1 * p.val = p.val; omega

theorem rd_T2 (c : Dev nD) (t : Fin cfg0.N) (d : Fin 512) (p : Fin 95) :
    bT2 m c t (ix2 d p) = (V m c main_v16 : S512x95.Idx → EReal) (ix2 d p) := by
  obtain ⟨a10, a11, a20, a21, a30, a31, a40, a41, a50, a51, a52, a60, a61, a62, a70, a71, a80, a81⟩ := idx_const t
  show V m c main_v16 (((cfg0.win 2).blk t).view.emb (ix2 d p)) = _
  refine congrArg _ (funext fun a => Fin.ext ?_)
  match a with
  | ⟨0, _⟩ => show win0_2.index t (0 : Fin 2) * 512 + 1 * d.val = d.val; omega
  | ⟨1, _⟩ => show win0_2.index t (1 : Fin 2) * 95 + 1 * p.val = p.val; omega

theorem rd_Q3 (c : Dev nD) (t : Fin cfg0.N) (u : Fin 1) (p : Fin 95) :
    bQ3 m c t (ix2 u p) = (V m c main_v20 : S1x95.Idx → EReal) (ix2 u p) := by
  obtain ⟨a10, a11, a20, a21, a30, a31, a40, a41, a50, a51, a52, a60, a61, a62, a70, a71, a80, a81⟩ := idx_const t
  show V m c main_v20 (((cfg0.win 3).blk t).view.emb (ix2 u p)) = _
  refine congrArg _ (funext fun a => Fin.ext ?_)
  match a with
  | ⟨0, _⟩ => show win0_3.index t (0 : Fin 2) * 1 + 1 * u.val = u.val; omega
  | ⟨1, _⟩ => show win0_3.index t (1 : Fin 2) * 95 + 1 * p.val = p.val; omega

theorem rd_LD (c : Dev nD) (t : Fin cfg0.N) (u : Fin 1) (p : Fin 95) :
    bLD m c t (ix2 u p) = (V m c main_v23 : S1x95.Idx → EReal) (ix2 u p) := by
  obtain ⟨a10, a11, a20, a21, a30, a31, a40, a41, a50, a51, a52, a60, a61, a62, a70, a71, a80, a81⟩ := idx_const t
  show V m c main_v23 (((cfg0.win 4).blk t).view.emb (ix2 u p)) = _
  refine congrArg _ (funext fun a => Fin.ext ?_)
  match a with
  | ⟨0, _⟩ => show win0_4.index t (0 : Fin 2) * 1 + 1 * u.val = u.val; omega
  | ⟨1, _⟩ => show win0_4.index t (1 : Fin 2) * 95 + 1 * p.val = p.val; omega

theorem rd_fg (c : Dev nD) (t : Fin cfg0.N) (ch : Fin 512) (u : Fin 1) (u' : Fin 1) :
    bfg m c t (ix3 ch u u') = (V m c main_v24 : S512x1x1.Idx → EReal) (ix3 ch u u') := by
  obtain ⟨a10, a11, a20, a21, a30, a31, a40, a41, a50, a51, a52, a60, a61, a62, a70, a71, a80, a81⟩ := idx_const t
  show V m c main_v24 (((cfg0.win 5).blk t).view.emb (ix3 ch u u')) = _
  refine congrArg _ (funext fun a => Fin.ext ?_)
  match a with
  | ⟨0, _⟩ => show win0_5.index t (0 : Fin 3) * 512 + 1 * ch.val = ch.val; omega
  | ⟨1, _⟩ => show win0_5.index t (1 : Fin 3) * 1 + 1 * u.val = u.val; omega
  | ⟨2, _⟩ => show win0_5.index t (2 : Fin 3) * 1 + 1 * u'.val = u'.val; omega

theorem rd_fb (c : Dev nD) (t : Fin cfg0.N) (ch : Fin 512) (u : Fin 1) (u' : Fin 1) :
    bfb m c t (ix3 ch u u') = (V m c main_v25 : S512x1x1.Idx → EReal) (ix3 ch u u') := by
  obtain ⟨a10, a11, a20, a21, a30, a31, a40, a41, a50, a51, a52, a60, a61, a62, a70, a71, a80, a81⟩ := idx_const t
  show V m c main_v25 (((cfg0.win 6).blk t).view.emb (ix3 ch u u')) = _
  refine congrArg _ (funext fun a => Fin.ext ?_)
  match a with
  | ⟨0, _⟩ => show win0_6.index t (0 : Fin 3) * 512 + 1 * ch.val = ch.val; omega
  | ⟨1, _⟩ => show win0_6.index t (1 : Fin 3) * 1 + 1 * u.val = u.val; omega
  | ⟨2, _⟩ => show win0_6.index t (2 : Fin 3) * 1 + 1 * u'.val = u'.val; omega

theorem rd_mg (c : Dev nD) (t : Fin cfg0.N) (u : Fin 1) (k : Fin 19) :
    bmg m c t (ix2 u k) = (V m c main_v26 : S1x19.Idx → EReal) (ix2 u k) := by
  obtain ⟨a10, a11, a20, a21, a30, a31, a40, a41, a50, a51, a52, a60, a61, a62, a70, a71, a80, a81⟩ := idx_const t
  show V m c main_v26 (((cfg0.win 7).blk t).view.emb (ix2 u k)) = _
  refine congrArg _ (funext fun a => Fin.ext ?_)
  match a with
  | ⟨0, _⟩ => show win0_7.index t (0 : Fin 2) * 1 + 1 * u.val = u.val; omega
  | ⟨1, _⟩ => show win0_7.index t (1 : Fin 2) * 19 + 1 * k.val = k.val; omega

theorem rd_mb (c : Dev nD) (t : Fin cfg0.N) (u : Fin 1) (k : Fin 19) :
    bmb m c t (ix2 u k) = (V m c main_v27 : S1x19.Idx → EReal) (ix2 u k) := by
  obtain ⟨a10, a11, a20, a21, a30, a31, a40, a41, a50, a51, a52, a60, a61, a62, a70, a71, a80, a81⟩ := idx_const t
  show V m c main_v27 (((cfg0.win 8).blk t).view.emb (ix2 u k)) = _
  refine congrArg _ (funext fun a => Fin.ext ?_)
  match a with
  | ⟨0, _⟩ => show win0_8.index t (0 : Fin 2) * 1 + 1 * u.val = u.val; omega
  | ⟨1, _⟩ => show win0_8.index t (1 : Fin 2) * 19 + 1 * k.val = k.val; omega

/-! ## What a point writes back, the cover, and the array -/

/-- What point t writes back is block t of the specification's array. -/
theorem flushed_eq (c : Dev nD) (t : Fin cfg0.N) :
    (dats m 0 c).flushed 9 t = ((cfg0.win 9).blk t).view.read (Elt Ideal) (G cKernel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.ValueP.flushed9]
  funext j
  obtain ⟨u, k, hh, w, rfl⟩ : ∃ (u : Fin 1) (k : Fin 19) (hh : Fin 16) (w : Fin 128), j = ix4 u k hh w :=
    ⟨j 0, j 1, j 2, j 3, eq_ix4 j⟩
  obtain rfl : u = 0 := Subsingleton.elim _ _
  show out0_9 (bx m c t) (bT1 m c t) (bT2 m c t) (bQ3 m c t) (bLD m c t) (bfg m c t) (bfb m c t) (bmg m c t) (bmb m c t) (ix4 (0 : Fin 1) k hh w)
      = G cKernel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb (ix4 (0 : Fin 1) k hh w))
  have hemb : ((cfg0.win 9).blk t).view.emb (ix4 (0 : Fin 1) k hh w) = ix4 (imgOf t) k (rowAt t hh) w := by
    obtain ⟨-, -, -, -, e4, e5, -, -⟩ := idx_facts t
    funext a
    apply Fin.ext
    match a with
    | ⟨0, _⟩ => show win0_9.index t (0 : Fin 4) * 1 + 1 * 0 = win0_9.index t (0 : Fin 4); omega
    | ⟨1, _⟩ => show win0_9.index t (1 : Fin 4) * 19 + 1 * k.val = k.val; omega
    | ⟨2, _⟩ => show win0_9.index t (2 : Fin 4) * 16 + 1 * hh.val = win0_9.index t (2 : Fin 4) * 16 + hh.val; omega
    | ⟨3, _⟩ => show win0_9.index t (3 : Fin 4) * 128 + 1 * w.val = w.val; omega
  rw [hemb, G_apply]
  refine (out_block_eq (bx m c t) (bT1 m c t) (bT2 m c t) (bQ3 m c t) (bLD m c t) (bfg m c t) (bfb m c t) (bmg m c t) (bmb m c t) k hh w).trans ?_
  exact Bat_eq_Gat_of cKernel (bx m c t) (bfg m c t) (bfb m c t) (bT1 m c t) (bT2 m c t) (bQ3 m c t) (bLD m c t) (bmg m c t) (bmb m c t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (imgOf t) k (rowAt t hh) w hh
    (fun ch => rd_x m c t ch hh w)
    (fun ch => (rd_fg m c t ch 0 0).trans (tab_fg m c ch))
    (fun ch => (rd_fb m c t ch 0 0).trans (tab_fb m c ch))
    (fun d mm k' => (rd_T1 m c t d (pIdx mm k')).trans (tab_T1 m c d mm k'))
    (fun d mm k' => (rd_T2 m c t d (pIdx mm k')).trans (tab_T2 m c d mm k'))
    (fun mm k' => (rd_Q3 m c t 0 (pIdx mm k')).trans (tab_Q3 m c mm k'))
    (fun mm k' => (rd_LD m c t 0 (pIdx mm k')).trans (tab_LD m c mm k'))
    (fun k' => (rd_mg m c t 0 k').trans (tab_mg m c k'))
    (fun k' => (rd_mb m c t 0 k').trans (tab_mb m c k'))

/-- An index of the result array is in point t's block iff each coordinate is in the block's range on its axis. -/
theorem mem_blk (t : Fin cfg0.N) (i : S4x19x128x128.Idx) :
    i ∈ ((cfg0.win 9).blk t).view.set ↔ ∀ a : Fin 4, win0_9.index t a * S1x19x16x128.size a ≤ (i a).val
      ∧ (i a).val < win0_9.index t a * S1x19x16x128.size a + S1x19x16x128.size a := by
  show i ∈ ((View.whole main_v28).slice (win0_9.rect t)).set ↔ _
  rw [View.set_slice_whole, Rect.mem_set_unit]
  exact Iff.rfl

/-- Every index (b, k, h, w) of the result array is in the block of the point at image b, row-block h / 16. -/
theorem covered (i : S4x19x128x128.Idx) : ∃ t : Fin cfg0.N, (cfg0.win 9).flush t = true ∧ i ∈ ((cfg0.win 9).blk t).view.set := by
  have hi0 : (i 0).val < 4 := (i 0).isLt
  have hi1 : (i 1).val < 19 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_9.index t (0 : Fin 4) = (i 0).val := congrFun ht 0
  have q1 : win0_9.index t (1 : Fin 4) = 0 := congrFun ht 1
  have q2 : win0_9.index t (2 : Fin 4) = (i 2).val / 16 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 19 ≤ (i 1).val ∧ (i 1).val < win0_9.index t (1 : Fin 4) * 19 + 19; omega
  | ⟨2, _⟩ => show win0_9.index t (2 : Fin 4) * 16 ≤ (i 2).val ∧ (i 2).val < win0_9.index t (2 : Fin 4) * 16 + 16; omega
  | ⟨3, _⟩ => show win0_9.index t (3 : Fin 4) * 128 ≤ (i 3).val ∧ (i 3).val < win0_9.index t (3 : Fin 4) * 128 + 128; omega

/-- The result array after the run. -/
theorem kernel_final (c : Dev nD) :
    ((dats m 0 c).arrAt 9 cfg0.N : S4x19x128x128.Idx → EReal) = G cKernel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 9 (G cKernel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) covered

end Gmm.Ker

end
-- ==== Proof.lean ====
/-
  The kernel is the per-pixel Gaussian-mixture head of a segmentation model; the reference is the same head in plain
  array operations. Both layer-normalise and unit-scale each pixel's 512 channels, evaluate for each of 19 classes and
  5 components the log-density core −½ (Σ f²/σ² − 2 Σ f μ/σ² + Σ μ²/σ²) − Σ log σ less a constant, take the maximum
  over the components and layer-normalise the class scores. They differ in layout (the kernel works on blocks of 16
  image rows with the channels leading and keeps its tables component-major; the reference flattens the pixels to rows
  and keeps its tables class-major), in how the products are formed, and in the constant: the kernel subtracts a float
  literal, the reference 256 · log of the float nearest 2π. Over the extended reals the layouts and the order of sums do
  not matter, and neither does the constant, because the final layer norm subtracts the mean over the classes and both
  constants are real numbers. So both programs compute the one function `Gmm.G`.
-/
import proofs.«168334_j24696061952473_1_alg».proof.Defs
import proofs.«168334_j24696061952473_1_alg».proof.Proof.Gen.Kernel
import proofs.«168334_j24696061952473_1_alg».proof.Proof.Gen.Kernel.Skeleton
import proofs.«168334_j24696061952473_1_alg».proof.Proof.Gen.Kernel.Launch
import proofs.«168334_j24696061952473_1_alg».proof.Proof.Gen.Kernel.Points
import proofs.«168334_j24696061952473_1_alg».proof.Proof.Gen.Kernel.Frame
import proofs.«168334_j24696061952473_1_alg».proof.Proof.Gen.KernelIdeal
import proofs.«168334_j24696061952473_1_alg».proof.Proof.Gen.KernelIdeal.Skeleton
import proofs.«168334_j24696061952473_1_alg».proof.Proof.Gen.KernelIdeal.Launch
import proofs.«168334_j24696061952473_1_alg».proof.Proof.Gen.KernelIdeal.Points
import proofs.«168334_j24696061952473_1_alg».proof.Proof.Gen.KernelIdeal.Frame
import proofs.«168334_j24696061952473_1_alg».proof.Proof.Gen.ReferenceIdeal
import proofs.«168334_j24696061952473_1_alg».proof.Proof.Gen.ReferenceIdeal.Run
import proofs.«168334_j24696061952473_1_alg».proof.Proof.Gen.ReferenceIdeal.Read
import proofs.«168334_j24696061952473_1_alg».proof.Proof.Gen.Pre_finite_inputs
import proofs.«168334_j24696061952473_1_alg».proof.Proof.KValue
import proofs.«168334_j24696061952473_1_alg».proof.Proof.Algebra
import proofs.«168334_j24696061952473_1_alg».proof.Proof.RefHead
import proofs.«168334_j24696061952473_1_alg».proof.Proof.KFinal
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the one function `Gmm.G` of arguments
    that agree: the kernel's at its own constant, the reference's at its own, and the two constants give one result. -/
theorem algebraic : Cert.algebraic_KernelIdeal_ReferenceIdeal := by
  intro m ρ m' ρ' _ hagree
  refine ⟨fun c => Gmm.G Gmm.cKernel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Gmm.Ker.kernel_final m c), (h c).2⟩)
      (Cert.KernelIdeal.ValueP.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, Gmm.Ref.ref_is_G,
      (hagree c).1, (hagree c).2.1, (hagree c).2.2.1, (hagree c).2.2.2.1, (hagree c).2.2.2.2.1, (hagree c).2.2.2.2.2.1,
      (hagree c).2.2.2.2.2.2]
    exact (Gmm.G_kernel_eq_ref _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
